-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x20x512x512 : Shape := ⟨4, ![8, 20, 512, 512]⟩
abbrev S_ : Shape := ⟨0, ![]⟩

class Facts : Prop where
  bcast_S_S8x20x512x512 : S_.BroadcastsInDim S8x20x512x512 (![] : Fin 0 → Fin S8x20x512x512.rank)
  reducesTo_S8x20x512x512_S_d0_1_2_3 : S8x20x512x512.ReducesTo [0, 1, 2, 3] S_
  h_S_ : 0 < S_.numel

variable [Facts]

def fn {F : FTy → Type} [FloatOps F] (main_arg0 : FVec F S8x20x512x512 .f32) : IVec S_ 1 :=
  let main_v0 : FVec F S8x20x512x512 .f32 := Host.absf main_arg0
  let main_cst : FVec F S_ .f32 := constant S_ .f32 0x7F800000#32
  let main_v1 : FVec F S8x20x512x512 .f32 := broadcastInDim S8x20x512x512 ![] bcast_S_S8x20x512x512 main_cst
  let main_v2 : IVec S8x20x512x512 1 := cmpf .olt main_v0 main_v1
  let main_c : IVec S_ 1 := constantI S_ 1 1#1
  let main_v3 : IVec S_ 1 := (fun x v => Host.reduce IntOp.andi x v reducesTo_S8x20x512x512_S_d0_1_2_3 h_S_) main_v2 main_c
  main_v3
-- ==== Kernel.lean ====
abbrev S8x20x512x512 : Shape := ⟨4, ![8, 20, 512, 512]⟩
abbrev S160x262144 : Shape := ⟨2, ![160, 262144]⟩
abbrev S160x1 : Shape := ⟨2, ![160, 1]⟩
abbrev S40x32768 : Shape := ⟨2, ![40, 32768]⟩
abbrev S40x1 : Shape := ⟨2, ![40, 1]⟩
abbrev S40 : Shape := ⟨1, ![40]⟩
abbrev S8x20 : Shape := ⟨2, ![8, 20]⟩
abbrev S_ : Shape := ⟨0, ![]⟩
abbrev S8 : Shape := ⟨1, ![8]⟩

abbrev nBuf : Space → Nat
  | .hbm => 27
  | .vmem => 12
  | .smem => 0
  | _ => 0

abbrev bufTy : (tb : Table) → Fin (tcTables nBuf tb) → BufTy
  | .hbm, ⟨0, _⟩ => ⟨S8x20x512x512, .f32⟩
  | .hbm, ⟨1, _⟩ => ⟨S160x262144, .f32⟩
  | .hbm, ⟨2, _⟩ => ⟨S160x1, .f32⟩
  | .hbm, ⟨3, _⟩ => ⟨S160x1, .f32⟩
  | .hbm, ⟨4, _⟩ => ⟨S160x1, .f32⟩
  | .hbm, ⟨5, _⟩ => ⟨S8x20, .f32⟩
  | .hbm, ⟨6, _⟩ => ⟨S8x20, .f32⟩
  | .hbm, ⟨7, _⟩ => ⟨S8x20, .f32⟩
  | .hbm, ⟨8, _⟩ => ⟨S_, .f32⟩
  | .hbm, ⟨9, _⟩ => ⟨S8x20, .f32⟩
  | .hbm, ⟨10, _⟩ => ⟨S8x20, .i1⟩
  | .hbm, ⟨11, _⟩ => ⟨S_, .f32⟩
  | .hbm, ⟨12, _⟩ => ⟨S_, .f32⟩
  | .hbm, ⟨13, _⟩ => ⟨S8x20, .f32⟩
  | .hbm, ⟨14, _⟩ => ⟨S8x20, .f32⟩
  | .hbm, ⟨15, _⟩ => ⟨S8x20, .f32⟩
  | .hbm, ⟨16, _⟩ => ⟨S8x20, .f32⟩
  | .hbm, ⟨17, _⟩ => ⟨S8x20, .f32⟩
  | .hbm, ⟨18, _⟩ => ⟨S_, .f32⟩
  | .hbm, ⟨19, _⟩ => ⟨S8x20, .f32⟩
  | .hbm, ⟨20, _⟩ => ⟨S8x20, .f32⟩
  | .hbm, ⟨21, _⟩ => ⟨S8x20, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .local _ .vmem, ⟨0, _⟩ => ⟨S40x32768, .f32⟩
  | .local _ .vmem, ⟨1, _⟩ => ⟨S40x32768, .f32⟩
  | .local _ .vmem, ⟨2, _⟩ => ⟨S40x1, .f32⟩
  | .local _ .vmem, ⟨3, _⟩ => ⟨S40x1, .f32⟩
  | .local _ .vmem, ⟨4, _⟩ => ⟨S40x1, .f32⟩
  | .local _ .vmem, ⟨5, _⟩ => ⟨S40x1, .f32⟩
  | .local _ .vmem, ⟨6, _⟩ => ⟨S40x1, .f32⟩
  | .local _ .vmem, ⟨7, _⟩ => ⟨S40x1, .f32⟩
  | .local _ .vmem, ⟨8, _⟩ => ⟨S40x1, .f32⟩
  | .local _ .vmem, ⟨9, _⟩ => ⟨S40x1, .f32⟩
  | .local _ .vmem, ⟨10, _⟩ => ⟨S40x1, .f32⟩
  | .local _ .vmem, ⟨11, _⟩ => ⟨S40x1, .f32⟩
  | _, _ => ⟨S8x20x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v54 : BitVec 1 := Scalar.cmpi .eq arg1 c7_i32
  let v55 : BitVec 32 := Scalar.extui v54
  let c0_i32_24 : BitVec 32 := 0#32
  let v56 : BitVec 1 := Scalar.cmpi .ne v55 c0_i32_24
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S40x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S40x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S40x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S40x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x20x512x512_S160x262144 : S8x20x512x512.ShapeCasts S160x262144
  inb_S40x1_S40x1_0_0 : ∀ a, (![0, 0] : Fin 2 → Nat) a + S40x1.size a ≤ S40x1.size a
  h_S40x1 : 0 < S40x1.numel
  shapeCasts_S40x1_S40x1 : S40x1.ShapeCasts S40x1
  inb_S40x32768_S40x32768_0_0 : ∀ a, (![0, 0] : Fin 2 → Nat) a + S40x32768.size a ≤ S40x32768.size a
  h_S40x32768 : 0 < S40x32768.numel
  shapeCasts_S40x32768_S40x32768 : S40x32768.ShapeCasts S40x32768
  reduces_S40x32768_S40 : S40x32768.Reduces [1] S40
  shapeCasts_S40_S40x1 : S40.ShapeCasts S40x1
  broadcasts_S40x1_S40x32768 : S40x1.Broadcasts S40x32768
  natLt_1_32 : 1 < 32
  shapeCasts_S160x1_S8x20 : S160x1.ShapeCasts S8x20
  bcast_S_S8x20 : S_.BroadcastsInDim S8x20 (![] : Fin 0 → Fin S8x20.rank)
  reducesTo_S8x20_S8_d1 : S8x20.ReducesTo [1] S8
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x32768.size a ≤ S160x262144.size a
  hwx0_0 : ∀ i : grid0.Coords, EltTy.bits .f32 = 32 ∨ (Rect.block (s := S160x262144) S40x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x1.size a ≤ S160x1.size a
  hwx0_1 : ∀ i : grid0.Coords, EltTy.bits .f32 = 32 ∨ (Rect.block (s := S160x1) S40x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S40x1.size a ≤ S160x1.size a
  hwx0_2 : ∀ i : grid0.Coords, EltTy.bits .f32 = 32 ∨ (Rect.block (s := S160x1) S40x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S40x1.size a ≤ S160x1.size a
  hwx0_3 : ∀ i : grid0.Coords, EltTy.bits .f32 = 32 ∨ (Rect.block (s := S160x1) S40x1.size (cc0_transform_3 i) (hinb0_3 i)).WholeWords (EltTy.packing .f32)

variable [Facts₀]

abbrev win0_0 : Pipeline.Window sig grid0 :=
  Pipeline.Window.ofSpec (Memref.whole main_v0) S40x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S40x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S40x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S40x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun i => !(k0_cond2 i == 1#1) | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x20x512x512 : Shape := ⟨4, ![8, 20, 512, 512]⟩
abbrev S8x20x262144 : Shape := ⟨3, ![8, 20, 262144]⟩
abbrev S_ : Shape := ⟨0, ![]⟩
abbrev S8x20 : Shape := ⟨2, ![8, 20]⟩
abbrev S8x20x1 : Shape := ⟨3, ![8, 20, 1]⟩
abbrev S8 : Shape := ⟨1, ![8]⟩

abbrev nBuf : Space → Nat
  | .hbm => 62
  | .vmem => 0
  | .smem => 0
  | _ => 0

abbrev bufTy : (tb : Table) → Fin (tcTables nBuf tb) → BufTy
  | .hbm, ⟨0, _⟩ => ⟨S8x20x512x512, .f32⟩
  | .hbm, ⟨1, _⟩ => ⟨S8x20x262144, .f32⟩
  | .hbm, ⟨2, _⟩ => ⟨S_, .f32⟩
  | .hbm, ⟨3, _⟩ => ⟨S8x20x262144, .f32⟩
  | .hbm, ⟨4, _⟩ => ⟨S8x20x262144, .i1⟩
  | .hbm, ⟨5, _⟩ => ⟨S_, .f32⟩
  | .hbm, ⟨6, _⟩ => ⟨S8x20x262144, .f32⟩
  | .hbm, ⟨7, _⟩ => ⟨S8x20x262144, .f32⟩
  | .hbm, ⟨8, _⟩ => ⟨S_, .f32⟩
  | .hbm, ⟨9, _⟩ => ⟨S8x20, .f32⟩
  | .hbm, ⟨10, _⟩ => ⟨S8x20x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x20x1, .f32⟩
  | .hbm, ⟨15, _⟩ => ⟨S8x20x1, .i1⟩
  | .hbm, ⟨16, _⟩ => ⟨S_, .f32⟩
  | .hbm, ⟨17, _⟩ => ⟨S_, .f32⟩
  | .hbm, ⟨18, _⟩ => ⟨S8x20x1, .f32⟩
  | .hbm, ⟨19, _⟩ => ⟨S8x20x1, .f32⟩
  | .hbm, ⟨20, _⟩ => ⟨S8x20x262144, .f32⟩
  | .hbm, ⟨21, _⟩ => ⟨S8x20x262144, .f32⟩
  | .hbm, ⟨22, _⟩ => ⟨S8x20x262144, .f32⟩
  | .hbm, ⟨23, _⟩ => ⟨S_, .f32⟩
  | .hbm, ⟨24, _⟩ => ⟨S_, .f32⟩
  | .hbm, ⟨25, _⟩ => ⟨S8x20x262144, .f32⟩
  | .hbm, ⟨26, _⟩ => ⟨S8x20x262144, .f32⟩
  | .hbm, ⟨27, _⟩ => ⟨S_, .f32⟩
  | .hbm, ⟨28, _⟩ => ⟨S8x20, .f32⟩
  | .hbm, ⟨29, _⟩ => ⟨S8x20x1, .f32⟩
  | .hbm, ⟨30, _⟩ => ⟨S_, .f32⟩
  | .hbm, ⟨31, _⟩ => ⟨S8x20x1, .f32⟩
  | .hbm, ⟨32, _⟩ => ⟨S8x20x1, .i1⟩
  | .hbm, ⟨33, _⟩ => ⟨S_, .f32⟩
  | .hbm, ⟨34, _⟩ => ⟨S_, .f32⟩
  | .hbm, ⟨35, _⟩ => ⟨S8x20x1, .f32⟩
  | .hbm, ⟨36, _⟩ => ⟨S8x20x1, .f32⟩
  | .hbm, ⟨37, _⟩ => ⟨S8x20x262144, .f32⟩
  | .hbm, ⟨38, _⟩ => ⟨S8x20x262144, .f32⟩
  | .hbm, ⟨39, _⟩ => ⟨S8x20x1, .f32⟩
  | .hbm, ⟨40, _⟩ => ⟨S8x20x262144, .f32⟩
  | .hbm, ⟨41, _⟩ => ⟨S8x20x262144, .f32⟩
  | .hbm, ⟨42, _⟩ => ⟨S8x20x262144, .f32⟩
  | .hbm, ⟨43, _⟩ => ⟨S8x20x262144, .f32⟩
  | .hbm, ⟨44, _⟩ => ⟨S8x20x262144, .f32⟩
  | .hbm, ⟨45, _⟩ => ⟨S_, .f32⟩
  | .hbm, ⟨46, _⟩ => ⟨S_, .f32⟩
  | .hbm, ⟨47, _⟩ => ⟨S8x20x262144, .f32⟩
  | .hbm, ⟨48, _⟩ => ⟨S8x20x262144, .f32⟩
  | .hbm, ⟨49, _⟩ => ⟨S_, .f32⟩
  | .hbm, ⟨50, _⟩ => ⟨S8x20, .f32⟩
  | .hbm, ⟨51, _⟩ => ⟨S8x20, .f32⟩
  | .hbm, ⟨52, _⟩ => ⟨S_, .f32⟩
  | .hbm, ⟨53, _⟩ => ⟨S8x20, .f32⟩
  | .hbm, ⟨54, _⟩ => ⟨S8x20, .f32⟩
  | .hbm, ⟨55, _⟩ => ⟨S8x20x262144, .i32⟩
  | .hbm, ⟨56, _⟩ => ⟨S_, .i32⟩
  | .hbm, ⟨57, _⟩ => ⟨S8, .i32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | _, _ => ⟨S8x20x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_call0_v0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_cst_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_call2_v0 : Ref sig .tc := ⟨.hbm, 24, rfl⟩
abbrev main_call2_v1 : Ref sig .tc := ⟨.hbm, 25, rfl⟩
abbrev main_v13 : Ref sig .tc := ⟨.hbm, 26, rfl⟩
abbrev main_cst_6 : Ref sig .tc := ⟨.hbm, 27, rfl⟩
abbrev main_v14 : Ref sig .tc := ⟨.hbm, 28, rfl⟩
abbrev main_v15 : Ref sig .tc := ⟨.hbm, 29, rfl⟩
abbrev main_cst_7 : Ref sig .tc := ⟨.hbm, 30, rfl⟩
abbrev main_v16 : Ref sig .tc := ⟨.hbm, 31, rfl⟩
abbrev main_v17 : Ref sig .tc := ⟨.hbm, 32, rfl⟩
abbrev main_cst_8 : Ref sig .tc := ⟨.hbm, 33, rfl⟩
abbrev main_call3_v0 : Ref sig .tc := ⟨.hbm, 34, rfl⟩
abbrev main_call3_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_call4_v0 : Ref sig .tc := ⟨.hbm, 46, rfl⟩
abbrev main_call4_v1 : Ref sig .tc := ⟨.hbm, 47, rfl⟩
abbrev main_v27 : Ref sig .tc := ⟨.hbm, 48, rfl⟩
abbrev main_cst_10 : Ref sig .tc := ⟨.hbm, 49, rfl⟩
abbrev main_v28 : Ref sig .tc := ⟨.hbm, 50, rfl⟩
abbrev main_v29 : Ref sig .tc := ⟨.hbm, 51, rfl⟩
abbrev main_cst_11 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c : Ref sig .tc := ⟨.hbm, 56, rfl⟩
abbrev main_v33 : Ref sig .tc := ⟨.hbm, 57, rfl⟩
abbrev main_v34 : Ref sig .tc := ⟨.hbm, 58, rfl⟩
abbrev main_cst_12 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]

class Facts₀ : Prop where
  shapeCasts_S8x20x512x512_S8x20x262144 : S8x20x512x512.ShapeCasts S8x20x262144
  bcast_S_S8x20x262144 : S_.BroadcastsInDim S8x20x262144 (![] : Fin 0 → Fin S8x20x262144.rank)
  reducesTo_S8x20x262144_S8x20_d2 : S8x20x262144.ReducesTo [2] S8x20
  h_S_ : 0 < S_.numel
  bcast_S8x20_S8x20x1_0_1 : S8x20.BroadcastsInDim S8x20x1 (![0, 1] : Fin 2 → Fin S8x20x1.rank)
  bcast_S_S8x20x1 : S_.BroadcastsInDim S8x20x1 (![] : Fin 0 → Fin S8x20x1.rank)
  bcast_S8x20x1_S8x20x262144_0_1_2 : S8x20x1.BroadcastsInDim S8x20x262144 (![0, 1, 2] : Fin 3 → Fin S8x20x262144.rank)
  bcast_S_S8x20 : S_.BroadcastsInDim S8x20 (![] : Fin 0 → Fin S8x20.rank)
  natLt_1_32 : 1 < 32
  reducesTo_S8x20x262144_S8_d1_2 : S8x20x262144.ReducesTo [1, 2] S8
  reducesTo_S8x20_S8_d1 : S8x20.ReducesTo [1] S8

variable [Facts₀]

class Facts : Prop extends Facts₀ where

variable [Facts]
-- ==== Proof.KPieces.lean ====
/-
  What each of the three control cases of the kernel's body leaves behind, as values.

  A grid point belongs to one of three cases: the first point of a row (the running maximum, weight,
  first moment and count are reset to the stand-in maximum and to zeros, then updated by the block),
  an inner point (updated by the block from what the point before left), and the last point of a row
  (updated, then the new weight, moment and count are handed to the three outputs). In every case the
  update of each running quantity is one pure function of the block and of the quantities it starts
  from; the lemmas below say which.
-/
import proofs.«177906_j35948876267666_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offset of a rank-two block, as a constant function. -/
theorem hz : (![0, 0] : Fin 2 → Nat) = fun _ => 0 := funext fun a => by fin_cases a <;> rfl

/-- The first point of a row: the running maximum is reset to its starting value and then updated by the block. -/
theorem sA0 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : cond0_0 i) (hc1 : ¬cond0_1 i)
    (x0 : Vec F S40x32768 .f32) :
    sout0_A_0 c i arg2 harg2 arg3 harg3 arg4 harg4 arg5 harg5 arg6 harg6 arg7 harg7 arg8 harg8 arg9 harg9 hc0 hc1 x0 = k0_pay3 (k0_pay10 x0 k0_pay4) := by
  unfold sout0_A_0
  rw [View.read_writes_eq_canon _ _ _ (scover0_A_0 c i arg2 harg2 arg3 harg3 arg4 harg4 arg5 harg5 arg6 harg6 arg7 harg7 arg8 harg8 arg9 harg9 hc0 hc1 x0)]
  unfold kernelRun0_A
  dsimp only
  sl_unfold_words
  rw [View.canon_cons_unit_zero (S := S40x1) hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- The first point of a row: the running weight is reset to its starting value and then updated by the block. -/
theorem sA1 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : cond0_0 i) (hc1 : ¬cond0_1 i)
    (x0 : Vec F S40x32768 .f32) :
    sout0_A_1 c i arg2 harg2 arg3 harg3 arg4 harg4 arg5 harg5 arg6 harg6 arg7 harg7 arg8 harg8 arg9 harg9 hc0 hc1 x0 = k0_pay15 x0 k0_pay4 k0_pay5 := by
  unfold sout0_A_1
  rw [View.read_writes_eq_canon _ _ _ (scover0_A_1 c i arg2 harg2 arg3 harg3 arg4 harg4 arg5 harg5 arg6 harg6 arg7 harg7 arg8 harg8 arg9 harg9 hc0 hc1 x0)]
  unfold kernelRun0_A
  dsimp only
  sl_unfold_words
  rw [View.canon_cons_unit_zero (S := S40x1) hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- The first point of a row: the running first moment is reset to its starting value and then updated by the block. -/
theorem sA2 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : cond0_0 i) (hc1 : ¬cond0_1 i)
    (x0 : Vec F S40x32768 .f32) :
    sout0_A_2 c i arg2 harg2 arg3 harg3 arg4 harg4 arg5 harg5 arg6 harg6 arg7 harg7 arg8 harg8 arg9 harg9 hc0 hc1 x0 = k0_pay1 k0_pay4 (k0_pay10 x0 k0_pay4) (k0_pay11 x0 k0_pay4) (k0_pay13 x0 k0_pay4) k0_pay5 k0_pay6 := by
  unfold sout0_A_2
  rw [View.read_writes_eq_canon _ _ _ (scover0_A_2 c i arg2 harg2 arg3 harg3 arg4 harg4 arg5 harg5 arg6 harg6 arg7 harg7 arg8 harg8 arg9 harg9 hc0 hc1 x0)]
  unfold kernelRun0_A
  dsimp only
  sl_unfold_words
  rw [View.canon_cons_unit_zero (S := S40x1) hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- The first point of a row: the running count is reset to its starting value and then updated by the block. -/
theorem sA3 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : cond0_0 i) (hc1 : ¬cond0_1 i)
    (x0 : Vec F S40x32768 .f32) :
    sout0_A_3 c i arg2 harg2 arg3 harg3 arg4 harg4 arg5 harg5 arg6 harg6 arg7 harg7 arg8 harg8 arg9 harg9 hc0 hc1 x0 = k0_pay2 (k0_pay14 x0) k0_pay7 := by
  unfold sout0_A_3
  rw [View.read_writes_eq_canon _ _ _ (scover0_A_3 c i arg2 harg2 arg3 harg3 arg4 harg4 arg5 harg5 arg6 harg6 arg7 harg7 arg8 harg8 arg9 harg9 hc0 hc1 x0)]
  unfold kernelRun0_A
  dsimp only
  sl_unfold_words
  rw [View.canon_cons_unit_zero (S := S40x1) hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- An inner point of a row: the running maximum left by the point before, updated by the block. -/
theorem sB0 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : ¬cond0_1 i)
    (x0 : Vec F S40x32768 .f32) (xs0 : Vec F S40x1 .f32) (xs1 : Vec F S40x1 .f32) (xs2 : Vec F S40x1 .f32) (xs3 : Vec F S40x1 .f32) :
    sout0_B_0 c i arg2 harg2 arg3 harg3 arg4 harg4 arg5 harg5 arg6 harg6 arg7 harg7 arg8 harg8 arg9 harg9 hc0 hc1 x0 xs0 xs1 xs2 xs3 = k0_pay3 (k0_pay10 x0 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- An inner point of a row: the running weight left by the point before, updated by the block. -/
theorem sB1 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : ¬cond0_1 i)
    (x0 : Vec F S40x32768 .f32) (xs0 : Vec F S40x1 .f32) (xs1 : Vec F S40x1 .f32) (xs2 : Vec F S40x1 .f32) (xs3 : Vec F S40x1 .f32) :
    sout0_B_1 c i arg2 harg2 arg3 harg3 arg4 harg4 arg5 harg5 arg6 harg6 arg7 harg7 arg8 harg8 arg9 harg9 hc0 hc1 x0 xs0 xs1 xs2 xs3 = k0_pay15 x0 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- An inner point of a row: the running first moment left by the point before, updated by the block. -/
theorem sB2 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : ¬cond0_1 i)
    (x0 : Vec F S40x32768 .f32) (xs0 : Vec F S40x1 .f32) (xs1 : Vec F S40x1 .f32) (xs2 : Vec F S40x1 .f32) (xs3 : Vec F S40x1 .f32) :
    sout0_B_2 c i arg2 harg2 arg3 harg3 arg4 harg4 arg5 harg5 arg6 harg6 arg7 harg7 arg8 harg8 arg9 harg9 hc0 hc1 x0 xs0 xs1 xs2 xs3 = k0_pay1 xs0 (k0_pay10 x0 xs0) (k0_pay11 x0 xs0) (k0_pay13 x0 xs0) xs1 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- An inner point of a row: the running count left by the point before, updated by the block. -/
theorem sB3 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : ¬cond0_1 i)
    (x0 : Vec F S40x32768 .f32) (xs0 : Vec F S40x1 .f32) (xs1 : Vec F S40x1 .f32) (xs2 : Vec F S40x1 .f32) (xs3 : Vec F S40x1 .f32) :
    sout0_B_3 c i arg2 harg2 arg3 harg3 arg4 harg4 arg5 harg5 arg6 harg6 arg7 harg7 arg8 harg8 arg9 harg9 hc0 hc1 x0 xs0 xs1 xs2 xs3 = k0_pay2 (k0_pay14 x0) xs3 := by
  unfold sout0_B_3
  rw [View.read_writes_eq_canon _ _ _ (scover0_B_3 c i arg2 harg2 arg3 harg3 arg4 harg4 arg5 harg5 arg6 harg6 arg7 harg7 arg8 harg8 arg9 harg9 hc0 hc1 x0 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- The last point of a row: the running maximum left by the point before, updated by the block. -/
theorem sC0 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x32768 .f32) (xs0 : Vec F S40x1 .f32) (xs1 : Vec F S40x1 .f32) (xs2 : Vec F S40x1 .f32) (xs3 : Vec F S40x1 .f32) :
    sout0_C_0 c i arg2 harg2 arg3 harg3 arg4 harg4 arg5 harg5 arg6 harg6 arg7 harg7 arg8 harg8 arg9 harg9 hc0 hc1 x0 xs0 xs1 xs2 xs3 = k0_pay3 (k0_pay10 x0 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- The last point of a row: the running weight left by the point before, updated by the block. -/
theorem sC1 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x32768 .f32) (xs0 : Vec F S40x1 .f32) (xs1 : Vec F S40x1 .f32) (xs2 : Vec F S40x1 .f32) (xs3 : Vec F S40x1 .f32) :
    sout0_C_1 c i arg2 harg2 arg3 harg3 arg4 harg4 arg5 harg5 arg6 harg6 arg7 harg7 arg8 harg8 arg9 harg9 hc0 hc1 x0 xs0 xs1 xs2 xs3 = k0_pay15 x0 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- The last point of a row: the running first moment left by the point before, updated by the block. -/
theorem sC2 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x32768 .f32) (xs0 : Vec F S40x1 .f32) (xs1 : Vec F S40x1 .f32) (xs2 : Vec F S40x1 .f32) (xs3 : Vec F S40x1 .f32) :
    sout0_C_2 c i arg2 harg2 arg3 harg3 arg4 harg4 arg5 harg5 arg6 harg6 arg7 harg7 arg8 harg8 arg9 harg9 hc0 hc1 x0 xs0 xs1 xs2 xs3 = k0_pay1 xs0 (k0_pay10 x0 xs0) (k0_pay11 x0 xs0) (k0_pay13 x0 xs0) xs1 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- The last point of a row: the running count left by the point before, updated by the block. -/
theorem sC3 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x32768 .f32) (xs0 : Vec F S40x1 .f32) (xs1 : Vec F S40x1 .f32) (xs2 : Vec F S40x1 .f32) (xs3 : Vec F S40x1 .f32) :
    sout0_C_3 c i arg2 harg2 arg3 harg3 arg4 harg4 arg5 harg5 arg6 harg6 arg7 harg7 arg8 harg8 arg9 harg9 hc0 hc1 x0 xs0 xs1 xs2 xs3 = k0_pay2 (k0_pay14 x0) xs3 := by
  unfold sout0_C_3
  rw [View.read_writes_eq_canon _ _ _ (scover0_C_3 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- The last point of a row hands the updated weight to output 1. -/
theorem oC1 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x32768 .f32) (xs0 : Vec F S40x1 .f32) (xs1 : Vec F S40x1 .f32) (xs2 : Vec F S40x1 .f32) (xs3 : Vec F S40x1 .f32) :
    out0_C_1 c i arg2 harg2 arg3 harg3 arg4 harg4 arg5 harg5 arg6 harg6 arg7 harg7 arg8 harg8 arg9 harg9 hc0 hc1 x0 xs0 xs1 xs2 xs3 = k0_pay15 x0 xs0 xs1 := by
  unfold out0_C_1
  rw [View.read_writes_eq_canon _ _ _ (cover0_C_1 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- The last point of a row hands the updated first moment to output 2. -/
theorem oC2 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x32768 .f32) (xs0 : Vec F S40x1 .f32) (xs1 : Vec F S40x1 .f32) (xs2 : Vec F S40x1 .f32) (xs3 : Vec F S40x1 .f32) :
    out0_C_2 c i arg2 harg2 arg3 harg3 arg4 harg4 arg5 harg5 arg6 harg6 arg7 harg7 arg8 harg8 arg9 harg9 hc0 hc1 x0 xs0 xs1 xs2 xs3 = k0_pay1 xs0 (k0_pay10 x0 xs0) (k0_pay11 x0 xs0) (k0_pay13 x0 xs0) xs1 xs2 := by
  unfold out0_C_2
  rw [View.read_writes_eq_canon _ _ _ (cover0_C_2 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

/-- The last point of a row hands the updated count to output 3. -/
theorem oC3 (c : Dev nD) (i : grid0.Coords) (arg2 : Memref sig .tc .vmem S40x32768 .f32) (harg2 : arg2.IsWhole) (arg3 : Memref sig .tc .vmem S40x1 .f32) (harg3 : arg3.IsWhole) (arg4 : Memref sig .tc .vmem S40x1 .f32) (harg4 : arg4.IsWhole) (arg5 : Memref sig .tc .vmem S40x1 .f32) (harg5 : arg5.IsWhole) (arg6 : Memref sig .tc .vmem S40x1 .f32) (harg6 : arg6.IsWhole) (arg7 : Memref sig .tc .vmem S40x1 .f32) (harg7 : arg7.IsWhole) (arg8 : Memref sig .tc .vmem S40x1 .f32) (harg8 : arg8.IsWhole) (arg9 : Memref sig .tc .vmem S40x1 .f32) (harg9 : arg9.IsWhole) (hc0 : ¬cond0_0 i) (hc1 : cond0_1 i)
    (x0 : Vec F S40x32768 .f32) (xs0 : Vec F S40x1 .f32) (xs1 : Vec F S40x1 .f32) (xs2 : Vec F S40x1 .f32) (xs3 : Vec F S40x1 .f32) :
    out0_C_3 c i arg2 harg2 arg3 harg3 arg4 harg4 arg5 harg5 arg6 harg6 arg7 harg7 arg8 harg8 arg9 harg9 hc0 hc1 x0 xs0 xs1 xs2 xs3 = k0_pay2 (k0_pay14 x0) xs3 := by
  unfold out0_C_3
  rw [View.read_writes_eq_canon _ _ _ (cover0_C_3 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S40x1) hz, View.ld_unit_zero (S := S40x32768) hz, View.readCov_unit_zero (S := S40x1) _ hz, shapeCast_self]

end Cert.KernelIdeal.Pieces

end
-- ==== Proof.Spec.lean ====
/-
  The mathematics both programs compute, written once over the extended reals.

  A row of the heatmap is a finite family of numbers. Only its positive entries count. With
  M the largest positive entry (or the finite stand-in NEG when there is none), the row's
  weight is l = ∑ exp (x - M), its first moment a = ∑ exp (x - M) · (x - M), both over the positive
  entries, and c is the number of positive entries. The row's entropy in bits is
  (log l · l - a) / (l · ln 2), read as 0 when the row has no positive entry.

  The kernel never sees a row whole: it meets it block by block and keeps a running
  (m, l, a, c), rescaling l and a whenever the running maximum moves (`step`). `run` is that
  recursion; the closed forms `rowM`, `rowL`, `rowA`, `rowC` are what it must end at.
-/
import Idealize.ShloMosaic.PureOps.Ideal
import Idealize.ShloMosaic.PureOps.Ideal.Laws
import Idealize.ShloMosaic.Lib.ValueIdx

noncomputable section

namespace Cert.Ent

open Idealize.ShloMosaic

/-- The finite stand-in for "no positive entry": the f32 nearest -1e30. -/
abbrev NEG : EReal := Ideal.ofBits .f32 0xF149F2CA#32
/-- The f32 nearest ln 2, the divisor that turns nats into bits. -/
abbrev LN2 : EReal := Ideal.ofBits .f32 0x3F317218#32
/-- The f32 one half. -/
abbrev HALF : EReal := Ideal.ofBits .f32 0x3F000000#32
/-- The f32 one. -/
abbrev ONE : EReal := Ideal.ofBits .f32 0x3F800000#32

/-- An entry as the maximum sees it: itself when positive, else the stand-in. -/
def mval (x : EReal) : EReal := if 0 < x then x else NEG
/-- An entry's weight against a maximum `m`: exp (x - m) when positive, else nothing. -/
def wexp (m x : EReal) : EReal := if 0 < x then Ideal.exp (x - m) else 0
/-- An entry's count: one when positive. -/
def ind (x : EReal) : EReal := if 0 < x then 1 else 0

/-- The running maximum, weight, first moment and count. -/
structure St where
  m : EReal
  l : EReal
  a : EReal
  c : EReal

/-- The state before any block. -/
def init : St := ⟨NEG, 0, 0, 0⟩

/-- One block `b` folded into the state: the maximum moves to `mn`, the old weight and
    moment are rescaled by exp (m - mn), and the block's own sums are added. -/
def step {ι : Type} [Fintype ι] (s : St) (b : ι → EReal) : St :=
  let mn := max s.m (Finset.univ.sup fun q => mval (b q))
  { m := mn
    l := Ideal.exp (s.m - mn) * s.l + ∑ q, wexp mn (b q)
    a := Ideal.exp (s.m - mn) * (s.a + (s.m - mn) * s.l) + ∑ q, wexp mn (b q) * (b q - mn)
    c := s.c + ∑ q, ind (b q) }

/-- The state after blocks 0 … k of the family `X`. -/
def run {ι : Type} [Fintype ι] (X : ℕ → ι → EReal) : ℕ → St
  | 0 => step init (X 0)
  | k + 1 => step (run X k) (X (k + 1))

section Row
variable {κ : Type} [Fintype κ]

/-- A whole row's maximum over its positive entries (NEG if none). -/
def rowM (x : κ → EReal) : EReal := Finset.univ.sup fun j => mval (x j)
/-- A whole row's weight. -/
def rowL (x : κ → EReal) : EReal := ∑ j, wexp (rowM x) (x j)
/-- A whole row's first moment. -/
def rowA (x : κ → EReal) : EReal := ∑ j, wexp (rowM x) (x j) * (x j - rowM x)
/-- A whole row's count of positive entries. -/
def rowC (x : κ → EReal) : EReal := ∑ j, ind (x j)

/-- The row's entropy in bits as the kernel's epilogue computes it from the weight and the moment. -/
def kernelEnt (l a : EReal) : EReal :=
  Ideal.div (Ideal.log (if 0 < l then l else ONE) * l - a) ((if 0 < l then l else ONE) * LN2)

/-- The row's entropy in bits as the reference computes it: the maximum guarded against the empty
    row, the softmax p = e / s, and -∑ p · log p over the positive entries. -/
def refEnt (x : κ → EReal) : EReal :=
  let m' := if rowM x ≤ NEG * HALF then 0 else rowM x
  let s := 0 + ∑ j, wexp m' (x j)
  let ss := if 0 < s then s else ONE
  Ideal.div (-(0 + ∑ j, if 0 < x j then Ideal.div (wexp m' (x j)) ss * ((x j - m') - Ideal.log ss) else 0)) LN2

end Row

/-- Row (n, c) of a [8, 20, 512, 512] array: its 512 × 512 entries in row-major order. -/
def rowOf (x0 : (⟨4, ![8, 20, 512, 512]⟩ : Shape).Idx → EReal) (n : Fin 8) (c : Fin 20) (j : Fin 262144) : EReal :=
  x0 (ValueIdx.ix4 n c ⟨j.val / 512, by have := j.isLt; omega⟩ ⟨j.val % 512, by omega⟩)

end Cert.Ent

end
-- ==== Proof.KStep.lean ====
/-
  One grid point of the kernel, read row by row, is one step of the running state.

  At a grid point the kernel holds a [40, 32768] block and four [40, 1] columns: the running
  maximum, weight, first moment and count of each of the 40 rows. Read at row p, the new
  maximum is the larger of the old one and the supremum of the row's masked lanes; the new weight
  and first moment are the old ones rescaled by exp (old maximum - new maximum) plus the row's
  own sums over its positive lanes; the new count is the old one plus the number of positive
  lanes. That is `Cert.Ent.step` on row p's lanes. The columns a row starts from are the stand-in
  NEG and three zeros: `Cert.Ent.init`.
-/
import proofs.«177906_j35948876267666_1_alg».proof.Proof.Gen.KernelIdeal.Skeleton
import proofs.«177906_j35948876267666_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.Ent Idealize.ShloMosaic Idealize.ShloMosaic.ValueIdx

/-- Row p of a [40, 32768] block as a family over its lanes. -/
abbrev lanes (x0 : Vec Ideal S40x32768 .f32) (p : Fin 40) : Fin 32768 → EReal := fun q => x0 (ix2 p q)
/-- Row p of a [40, 1] column. -/
abbrev at0 (v : Vec Ideal S40x1 .f32) (p : Fin 40) : EReal := v (ix2 p (0 : Fin 1))

/-! ## Reading the layout and reduction operations at a row -/

/-- A [40] vector viewed as a [40, 1] column reads, at row p, its entry p. -/
theorem col_apply {α : Type} (v : S40.Idx → α) (p : Fin 40) :
    shapeCast S40x1 v shapeCasts_S40_S40x1 (ix2 p (0 : Fin 1)) = v (ix1 p) :=
  shapeCast_apply v _ _ _ (by
    rw [Shape.rowMajor_val_one, Shape.rowMajor_val_two]
    show p.val = p.val * 1 + 0
    omega)

/-- A [40, 1] column spread over the 32768 lanes reads, at (p, q), the column's row p. -/
theorem spread_apply {α : Type} (v : S40x1.Idx → α) (p : Fin 40) (q : Fin 32768) :
    broadcastTo S40x32768 v broadcasts_S40x1_S40x32768 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- The index of lane q of row p, as the one-axis reduction names it. -/
theorem lift_row (h : S40x32768.Reduces [1] S40) (p : Fin 40) (q : Fin 32768) :
    h.lift (ix1 p) q = ix2 p q := by
  funext c
  match c with
  | ⟨0, _⟩ => rfl
  | ⟨1, _⟩ => rfl

/-- The sum over the lanes of a [40, 32768] block, at row p. -/
theorem rowsum_apply (src : FVec Ideal S40x32768 .f32) (h : S40x32768.Reduces [1] S40)
    (hφ : FKind.Formats .f32) (hacc : (0x00000000#32 : BitVec 32) = FKind.add.neutral .f32 hφ) (p : Fin 40) :
    multiReduction .add [1] S40 src 0x00000000#32 h hφ hacc (ix1 p) = ∑ q : Fin 32768, src (ix2 p q) := by
  refine (Ideal.multiReduction_add_single src _ h hφ hacc (ix1 p)).trans ?_
  exact Finset.sum_congr rfl fun q _ => congrArg src (lift_row h p q)

/-- On the extended reals the fold of max from ⊥ over a finite family is its supremum. -/
theorem fold_max_bot {ι : Type} [Fintype ι] (f : ι → EReal) :
    (Finset.univ : Finset ι).fold max ⊥ f = Finset.univ.sup f := by
  unfold Finset.sup
  refine Finset.fold_congr ?_
  intro _ _; rfl

/-- The maximum over the lanes of a [40, 32768] block, at row p. -/
theorem rowmax_apply (src : FVec Ideal S40x32768 .f32) (h : S40x32768.Reduces [1] S40)
    (hφ : FKind.Formats .f32) (hacc : (0xFF800000#32 : BitVec 32) = FKind.maximumf.neutral .f32 hφ) (p : Fin 40) :
    multiReduction .maximumf [1] S40 src 0xFF800000#32 h hφ hacc (ix1 p)
      = Finset.univ.sup fun q : Fin 32768 => src (ix2 p q) := by
  refine (Ideal.multiReduction_maximumf_single src _ h hφ hacc (ix1 p)).trans ?_
  have hb : FloatOps.ofBits (F := Ideal) .f32 0xFF800000#32 = (⊥ : EReal) := by
    simp [Ideal.ofBits, Ideal.ieee]
  rw [hb]
  refine (fold_max_bot _).trans ?_
  exact congrArg (Finset.univ.sup) (funext fun q => congrArg src (lift_row h p q))

/-! ## The mask: "the entry is positive" -/

/-- A select on the bit of "x > 0" is the `if` on 0 < x. -/
theorem sel_pos (x a b : EReal) :
    Scalar.select (FloatOps.cmpf (F := Ideal) (φ := .f32) .ogt x (Scalar.ofBits .f32 0x00000000#32)) a b
      = if 0 < x then a else b := by
  have h0 : Scalar.ofBits (F := Ideal) .f32 0x00000000#32 = (0 : EReal) := Ideal.ofBits_zero_f32
  rw [h0, Ideal.cmpf_def]
  unfold Scalar.select Ideal.cmp
  by_cases h : (0 : EReal) < x
  · simp [h]
  · simp [h]

/-- The bit of "x > 0", widened to a word and read as a signed integer, is the count of x. -/
theorem cnt_pos (x : EReal) :
    FloatOps.sitofp (F := Ideal) .f32
        ((FloatOps.cmpf (F := Ideal) (φ := .f32) .ogt x (Scalar.ofBits .f32 0x00000000#32)).setWidth 32)
      = ind x := by
  have h0 : Scalar.ofBits (F := Ideal) .f32 0x00000000#32 = (0 : EReal) := Ideal.ofBits_zero_f32
  rw [h0, Ideal.cmpf_def]
  unfold ind Ideal.cmp
  show (((BitVec.setWidth 32 (BitVec.ofBool (decide ((0 : EReal) < x)))).toInt : ℝ) : EReal) = _
  by_cases h : (0 : EReal) < x
  · simp [h]
  · simp [h]

/-- The block's masked entry at (p, q): the entry when positive, else the stand-in. -/
theorem masked_apply (x0 : Vec Ideal S40x32768 .f32) (p : Fin 40) (q : Fin 32768) :
    select (k0_pay9 x0) (k0_pay8 x0) (broadcast S40x32768 (Scalar.ofBits (F := Ideal) .f32 0xF149F2CA#32)) (ix2 p q)
      = mval (x0 (ix2 p q)) := by
  unfold k0_pay9 k0_pay8
  rw [shapeCast_self]
  exact sel_pos _ _ _

/-- The new running maximum at row p. -/
theorem pay10_apply (x0 : Vec Ideal S40x32768 .f32) (mo : Vec Ideal S40x1 .f32) (p : Fin 40) :
    k0_pay10 x0 mo (ix2 p (0 : Fin 1)) = max (at0 mo p) (Finset.univ.sup fun q => mval (lanes x0 p q)) := by
  unfold k0_pay10
  refine congrArg (max (mo (ix2 p (0 : Fin 1)))) ?_
  refine (col_apply _ p).trans ?_
  refine (rowmax_apply _ _ _ _ p).trans ?_
  exact congrArg (Finset.univ.sup) (funext fun q => masked_apply x0 p q)

/-- The rescaling factor at row p: exp of the old maximum minus the new one. -/
theorem pay11_apply (x0 : Vec Ideal S40x32768 .f32) (mo : Vec Ideal S40x1 .f32) (p : Fin 40) :
    k0_pay11 x0 mo (ix2 p (0 : Fin 1))
      = Ideal.exp (at0 mo p - k0_pay10 x0 mo (ix2 p (0 : Fin 1))) := by
  unfold k0_pay11
  rfl

/-- The block's weight at (p, q) against the new maximum of row p. -/
theorem pay12_apply (x0 : Vec Ideal S40x32768 .f32) (mo : Vec Ideal S40x1 .f32) (p : Fin 40) (q : Fin 32768) :
    k0_pay12 x0 mo (ix2 p q) = wexp (k0_pay10 x0 mo (ix2 p (0 : Fin 1))) (x0 (ix2 p q)) := by
  unfold k0_pay12 k0_pay9 k0_pay8
  rw [shapeCast_self]
  refine (sel_pos _ _ _).trans ?_
  unfold wexp
  have h0 : Scalar.ofBits (F := Ideal) .f32 0x00000000#32 = (0 : EReal) := Ideal.ofBits_zero_f32
  have hs : broadcastTo S40x32768 (k0_pay10 x0 mo) broadcasts_S40x1_S40x32768 (ix2 p q)
      = k0_pay10 x0 mo (ix2 p (0 : Fin 1)) := spread_apply _ p q
  by_cases h : (0 : EReal) < x0 (ix2 p q)
  · rw [if_pos h, if_pos h]
    show Ideal.exp (x0 (ix2 p q) - broadcastTo S40x32768 (k0_pay10 x0 mo) broadcasts_S40x1_S40x32768 (ix2 p q)) = _
    rw [hs]
  · rw [if_neg h, if_neg h]
    exact h0

/-- The block's first moment at row p against the new maximum. -/
theorem pay13_apply (x0 : Vec Ideal S40x32768 .f32) (mo : Vec Ideal S40x1 .f32) (p : Fin 40) :
    k0_pay13 x0 mo (ix2 p (0 : Fin 1))
      = ∑ q : Fin 32768, wexp (k0_pay10 x0 mo (ix2 p (0 : Fin 1))) (x0 (ix2 p q))
          * (x0 (ix2 p q) - k0_pay10 x0 mo (ix2 p (0 : Fin 1))) := by
  unfold k0_pay13
  refine (col_apply _ p).trans ?_
  refine (rowsum_apply _ _ _ _ p).trans ?_
  refine Finset.sum_congr rfl fun q _ => ?_
  have hs : broadcastTo S40x32768 (k0_pay10 x0 mo) broadcasts_S40x1_S40x32768 (ix2 p q)
      = k0_pay10 x0 mo (ix2 p (0 : Fin 1)) := spread_apply _ p q
  show k0_pay12 x0 mo (ix2 p q) * (k0_pay8 x0 (ix2 p q)
      - broadcastTo S40x32768 (k0_pay10 x0 mo) broadcasts_S40x1_S40x32768 (ix2 p q)) = _
  rw [hs, pay12_apply]
  unfold k0_pay8
  rw [shapeCast_self]

/-- The block's count of positive entries at row p. -/
theorem pay14_apply (x0 : Vec Ideal S40x32768 .f32) (p : Fin 40) :
    k0_pay14 x0 (ix2 p (0 : Fin 1)) = ∑ q : Fin 32768, ind (x0 (ix2 p q)) := by
  unfold k0_pay14
  refine (col_apply _ p).trans ?_
  refine (rowsum_apply _ _ _ _ p).trans ?_
  refine Finset.sum_congr rfl fun q _ => ?_
  unfold k0_pay9 k0_pay8
  rw [shapeCast_self]
  exact cnt_pos _

/-- The new running weight at row p. -/
theorem pay15_apply (x0 : Vec Ideal S40x32768 .f32) (mo lo : Vec Ideal S40x1 .f32) (p : Fin 40) :
    k0_pay15 x0 mo lo (ix2 p (0 : Fin 1))
      = Ideal.exp (at0 mo p - k0_pay10 x0 mo (ix2 p (0 : Fin 1))) * at0 lo p
        + ∑ q : Fin 32768, wexp (k0_pay10 x0 mo (ix2 p (0 : Fin 1))) (x0 (ix2 p q)) := by
  unfold k0_pay15
  rw [shapeCast_self]
  show k0_pay11 x0 mo (ix2 p (0 : Fin 1)) * lo (ix2 p (0 : Fin 1))
      + shapeCast S40x1 (multiReduction .add [1] S40 (k0_pay12 x0 mo) 0x00000000#32 reduces_S40x32768_S40 (.inl rfl) rfl)
          shapeCasts_S40_S40x1 (ix2 p (0 : Fin 1)) = _
  refine congrArg₂ (· + ·) (congrArg (· * lo (ix2 p (0 : Fin 1))) (pay11_apply x0 mo p)) ?_
  refine (col_apply _ p).trans ?_
  refine (rowsum_apply _ _ _ _ p).trans ?_
  exact Finset.sum_congr rfl fun q _ => pay12_apply x0 mo p q

/-- The new running first moment at row p. -/
theorem pay1_apply (x0 : Vec Ideal S40x32768 .f32) (mo lo ao : Vec Ideal S40x1 .f32) (p : Fin 40) :
    k0_pay1 mo (k0_pay10 x0 mo) (k0_pay11 x0 mo) (k0_pay13 x0 mo) lo ao (ix2 p (0 : Fin 1))
      = Ideal.exp (at0 mo p - k0_pay10 x0 mo (ix2 p (0 : Fin 1)))
          * (at0 ao p + (at0 mo p - k0_pay10 x0 mo (ix2 p (0 : Fin 1))) * at0 lo p)
        + ∑ q : Fin 32768, wexp (k0_pay10 x0 mo (ix2 p (0 : Fin 1))) (x0 (ix2 p q))
            * (x0 (ix2 p q) - k0_pay10 x0 mo (ix2 p (0 : Fin 1))) := by
  unfold k0_pay1
  rw [shapeCast_self]
  show k0_pay11 x0 mo (ix2 p (0 : Fin 1))
        * (ao (ix2 p (0 : Fin 1)) + (mo (ix2 p (0 : Fin 1)) - k0_pay10 x0 mo (ix2 p (0 : Fin 1))) * lo (ix2 p (0 : Fin 1)))
      + k0_pay13 x0 mo (ix2 p (0 : Fin 1)) = _
  rw [pay11_apply, pay13_apply]

/-- The new running count at row p. -/
theorem pay2_apply (x0 : Vec Ideal S40x32768 .f32) (co : Vec Ideal S40x1 .f32) (p : Fin 40) :
    k0_pay2 (k0_pay14 x0) co (ix2 p (0 : Fin 1)) = at0 co p + ∑ q : Fin 32768, ind (x0 (ix2 p q)) := by
  unfold k0_pay2
  rw [shapeCast_self]
  show co (ix2 p (0 : Fin 1)) + k0_pay14 x0 (ix2 p (0 : Fin 1)) = _
  rw [pay14_apply]

/-! ## One grid point is one step of the running state, row by row -/

theorem point_step (x0 : Vec Ideal S40x32768 .f32) (mo lo ao co : Vec Ideal S40x1 .f32) (p : Fin 40) :
    (⟨at0 (k0_pay3 (k0_pay10 x0 mo)) p,
      at0 (k0_pay15 x0 mo lo) p,
      at0 (k0_pay1 mo (k0_pay10 x0 mo) (k0_pay11 x0 mo) (k0_pay13 x0 mo) lo ao) p,
      at0 (k0_pay2 (k0_pay14 x0) co) p⟩ : St)
      = step ⟨at0 mo p, at0 lo p, at0 ao p, at0 co p⟩ (lanes x0 p) := by
  have hm : at0 (k0_pay3 (k0_pay10 x0 mo)) p = k0_pay10 x0 mo (ix2 p (0 : Fin 1)) := by
    unfold k0_pay3
    rw [shapeCast_self]
  have h10 := pay10_apply x0 mo p
  unfold step
  simp only [St.mk.injEq]
  refine ⟨?_, ?_, ?_, ?_⟩
  · rw [hm, h10]
  · show k0_pay15 x0 mo lo (ix2 p (0 : Fin 1)) = _
    rw [pay15_apply, h10]
  · show k0_pay1 mo (k0_pay10 x0 mo) (k0_pay11 x0 mo) (k0_pay13 x0 mo) lo ao (ix2 p (0 : Fin 1)) = _
    rw [pay1_apply, h10]
  · show k0_pay2 (k0_pay14 x0) co (ix2 p (0 : Fin 1)) = _
    rw [pay2_apply]

/-! ## The state a row starts from -/

theorem init_m (p : Fin 40) : at0 (k0_pay4 (F := Ideal)) p = NEG := by
  unfold k0_pay4
  exact congrFun (shapeCast_self (broadcast S40x1 (Scalar.ofBits (F := Ideal) .f32 0xF149F2CA#32))
    shapeCasts_S40x1_S40x1) (ix2 p (0 : Fin 1))

theorem init_l (p : Fin 40) : at0 (k0_pay5 (F := Ideal)) p = 0 := by
  unfold k0_pay5
  exact (congrFun (shapeCast_self (broadcast S40x1 (Scalar.ofBits (F := Ideal) .f32 0x00000000#32))
    shapeCasts_S40x1_S40x1) (ix2 p (0 : Fin 1))).trans Ideal.ofBits_zero_f32

theorem init_a (p : Fin 40) : at0 (k0_pay6 (F := Ideal)) p = 0 := by
  unfold k0_pay6
  exact (congrFun (shapeCast_self (broadcast S40x1 (Scalar.ofBits (F := Ideal) .f32 0x00000000#32))
    shapeCasts_S40x1_S40x1) (ix2 p (0 : Fin 1))).trans Ideal.ofBits_zero_f32

theorem init_c (p : Fin 40) : at0 (k0_pay7 (F := Ideal)) p = 0 := by
  unfold k0_pay7
  exact (congrFun (shapeCast_self (broadcast S40x1 (Scalar.ofBits (F := Ideal) .f32 0x00000000#32))
    shapeCasts_S40x1_S40x1) (ix2 p (0 : Fin 1))).trans Ideal.ofBits_zero_f32

end Cert.KernelIdeal.Pay

end
-- ==== Proof.KInv.lean ====
/-
  The carried scratch of the kernel, point by point, is the block-by-block running state of each row.

  The grid has 4 × 8 points; point t works on rows 40 (t / 8) … 40 (t / 8) + 39 of the [160, 262144]
  array and on lanes 32768 (t % 8) … of them. The four scratch columns hold, for each of the 40 rows,
  the running maximum, weight, first moment and count. By induction on the point: after point t the
  scratch holds `run` of the row's blocks 0 … t % 8 — the first point of a row block starts from the
  reset values, every other point from what the point before left, and one point is one `step`.
-/
import proofs.«177906_j35948876267666_1_alg».proof.Proof.KPieces
import proofs.«177906_j35948876267666_1_alg».proof.Proof.KStep

noncomputable section

namespace Cert.KernelIdeal.Inv

open Cert.KernelIdeal Cert.KernelIdeal.Gen Cert.KernelIdeal.Pieces Cert.KernelIdeal.Pay Cert.Ent
open Idealize.ShloMosaic Idealize.ShloMosaic.TcCoe Idealize.SL.Sem Idealize.ShloMosaic.ValueIdx

variable (m : (ℓ : Loc nD τ sig) → Buf (Elt Ideal) ℓ)

/-- The heatmap as the region finds it: 160 rows of 262144 entries. -/
abbrev xarr (c : Dev nD) : Vec Ideal S160x262144 .f32 := V m c main_v0
/-- The [40, 32768] block of it that point `t` works on. -/
abbrev xblk (c : Dev nD) (t : Fin cfg0.N) : Vec Ideal S40x32768 .f32 := iblk m c 0 t

/-- Point `t`'s block is block (t / 8, t % 8). -/
theorem idx0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)

/-- Entry (p, q) of point `t`'s block is entry (40 (t / 8) + p, 32768 (t % 8) + q) of the array. -/
theorem xblk_apply (c : Dev nD) (t : Fin cfg0.N) (p : Fin 40) (q : Fin 32768) (r : Fin 160) (j : Fin 262144)
    (hr : r.val = 40 * (t.val / 8) + p.val) (hj : j.val = 32768 * (t.val % 8) + q.val) :
    xblk m c t (ix2 p q) = xarr m c (ix2 r j) := by
  obtain ⟨e0, e1⟩ := idx0 t
  unfold xblk iblk
  rw [View.read_apply]
  show V m c main_v0 _ = V m c main_v0 _
  congr 1
  funext a
  apply Fin.ext
  match a with
  | ⟨0, _⟩ => show win0_0.index t (0 : Fin 2) * 40 + 1 * p.val = r.val; rw [e0, hr]; omega
  | ⟨1, _⟩ => show win0_0.index t (1 : Fin 2) * 32768 + 1 * q.val = j.val; rw [e1, hj]; omega

/-- Row `r` of the array as a family of blocks: block k, lane q. -/
def X (c : Dev nD) (r : Fin 160) (k : ℕ) (q : Fin 32768) : EReal :=
  xarr m c (ix2 r ⟨32768 * (k % 8) + q.val, by have := q.isLt; omega⟩)

/-- The array row that row `p` of point `n`'s block is. -/
def rowIx (n : ℕ) (p : Fin 40) : Fin 160 := ⟨(40 * (n / 8) + p.val) % 160, Nat.mod_lt _ (by decide)⟩

/-- Row `p` of point `t`'s block is block t % 8 of its array row. -/
theorem lanes_eq (c : Dev nD) (t : Fin cfg0.N) (p : Fin 40) :
    lanes (xblk m c t) p = X m c (rowIx t.val p) (t.val % 8) := by
  have hN : cfg0.N = 32 := N_0
  have ht := t.isLt
  have hp := p.isLt
  funext q
  exact xblk_apply m c t p q _ _ (by show (40 * (t.val / 8) + p.val) % 160 = _; omega)
    (by show 32768 * (t.val % 8 % 8) + q.val = _; omega)

/-- The running state of row `p` read off the four carried scratch columns after point `n`. -/
def stAt (c : Dev nD) (n : ℕ) (hn : n < cfg0.N) (p : Fin 40) : St :=
  ⟨at0 (outsAt0 m c n hn).2.2.2.1 p, at0 (outsAt0 m c n hn).2.2.2.2.1 p,
   at0 (outsAt0 m c n hn).2.2.2.2.2.1 p, at0 (outsAt0 m c n hn).2.2.2.2.2.2 p⟩

/-- After point `n` the scratch holds, row by row, the running state of the row's blocks 0 … n % 8. -/
theorem stAt_eq (c : Dev nD) : ∀ (n : ℕ) (hn : n < cfg0.N) (p : Fin 40),
    stAt m c n hn p = run (X m c (rowIx n p)) (n % 8) := by
  have hN : cfg0.N = 32 := N_0
  intro n
  induction n with
  | zero =>
    intro hn p
    have h0 : (⟨0, hn⟩ : Fin cfg0.N).val % 8 = 0 := rfl
    have h1 : ¬(⟨0, hn⟩ : Fin cfg0.N).val % 8 = 7 := by show ¬(0 : ℕ) % 8 = 7; decide
    unfold stAt
    rw [show outsAt0 m c 0 hn = _ from outsAt0_A m c ⟨0, hn⟩ h0 h1]
    dsimp only
    rw [sA0, sA1, sA2, sA3, point_step, init_m, init_l, init_a, init_c]
    rw [show lanes (iblk m c 0 ⟨0, hn⟩) p = _ from lanes_eq m c ⟨0, hn⟩ p]
    rfl
  | succ n ih =>
    intro hn p
    have hp := p.isLt
    have hn' : n < cfg0.N := Nat.lt_of_succ_lt hn
    by_cases h0 : (n + 1) % 8 = 0
    · have h0' : (⟨n + 1, hn⟩ : Fin cfg0.N).val % 8 = 0 := h0
      have h1' : ¬(⟨n + 1, hn⟩ : Fin cfg0.N).val % 8 = 7 := by show ¬(n + 1) % 8 = 7; omega
      unfold stAt
      rw [show outsAt0 m c (n + 1) hn = _ from outsAt0_A m c ⟨n + 1, hn⟩ h0' h1']
      dsimp only
      rw [sA0, sA1, sA2, sA3, point_step, init_m, init_l, init_a, init_c]
      rw [show lanes (iblk m c 0 ⟨n + 1, hn⟩) p = _ from lanes_eq m c ⟨n + 1, hn⟩ p]
      show step init _ = run _ ((n + 1) % 8)
      rw [h0]
      rfl
    · have h0' : ¬(⟨n + 1, hn⟩ : Fin cfg0.N).val % 8 = 0 := h0
      have hrow : rowIx n p = rowIx (n + 1) p := by
        apply Fin.ext
        show (40 * (n / 8) + p.val) % 160 = (40 * ((n + 1) / 8) + p.val) % 160
        omega
      have hk : (n + 1) % 8 = n % 8 + 1 := by omega
      have ih' := ih hn' p
      by_cases h1 : (n + 1) % 8 = 7
      · have h1' : (⟨n + 1, hn⟩ : Fin cfg0.N).val % 8 = 7 := h1
        unfold stAt
        rw [show outsAt0 m c (n + 1) hn = _ from outsAt0_C m c ⟨n + 1, hn⟩ h0' h1']
        dsimp only
        rw [sC0, sC1, sC2, sC3, point_step]
        rw [show lanes (iblk m c 0 ⟨n + 1, hn⟩) p = _ from lanes_eq m c ⟨n + 1, hn⟩ p]
        show step (stAt m c n hn' p) (X m c (rowIx (n + 1) p) ((n + 1) % 8)) = _
        rw [ih', hrow, hk]
        rfl
      · have h1' : ¬(⟨n + 1, hn⟩ : Fin cfg0.N).val % 8 = 7 := h1
        unfold stAt
        rw [show outsAt0 m c (n + 1) hn = _ from outsAt0_B m c ⟨n + 1, hn⟩ h0' h1']
        dsimp only
        rw [sB0, sB1, sB2, sB3, point_step]
        rw [show lanes (iblk m c 0 ⟨n + 1, hn⟩) p = _ from lanes_eq m c ⟨n + 1, hn⟩ p]
        show step (stAt m c n hn' p) (X m c (rowIx (n + 1) p) ((n + 1) % 8)) = _
        rw [ih', hrow, hk]
        rfl

/-- At the last point of a row block the three outputs' buffers hold the new weight, moment and count:
    what the scratch holds. -/
theorem outs_last (c : Dev nD) (t : Fin cfg0.N) (h7 : t.val % 8 = 7) :
    (outsAt0 m c t.val t.isLt).1 = (outsAt0 m c t.val t.isLt).2.2.2.2.1
    ∧ (outsAt0 m c t.val t.isLt).2.1 = (outsAt0 m c t.val t.isLt).2.2.2.2.2.1
    ∧ (outsAt0 m c t.val t.isLt).2.2.1 = (outsAt0 m c t.val t.isLt).2.2.2.2.2.2 := by
  have h0 : ¬t.val % 8 = 0 := by omega
  rw [outsAt0_C m c t h0 h7]
  dsimp only
  rw [oC1, oC2, oC3, sC1, sC2, sC3]
  exact ⟨rfl, rfl, rfl⟩

end Cert.KernelIdeal.Inv

end
-- ==== Proof.KFinal.lean ====
/-
  The three output arrays after the region.

  Each of the 4 row blocks is written back once, at the last of its 8 points, from buffers that hold what
  the scratch holds there: the weight, first moment and count of each of the block's 40 rows after all
  8 blocks of lanes. The 4 write-backs tile the [160, 1] arrays, so entry (r, 0) of each array ends at
  the corresponding component of row r's running state after its last block.
-/
import proofs.«177906_j35948876267666_1_alg».proof.Proof.KInv
import Idealize.ShloMosaic.Lib.Pipeline.Value

noncomputable section

namespace Cert.KernelIdeal.Final

open Cert.KernelIdeal Cert.KernelIdeal.Gen Cert.KernelIdeal.Pay Cert.KernelIdeal.Inv Cert.Ent
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Row r's weight after its last block, as the [160, 1] array the first output ends at. -/
def outL (c : Dev nD) : Vec Ideal S160x1 .f32 := fun i => (run (X m c (i 0)) 7).l
/-- Row r's first moment after its last block: the second output. -/
def outA (c : Dev nD) : Vec Ideal S160x1 .f32 := fun i => (run (X m c (i 0)) 7).a
/-- Row r's count after its last block: the third output. -/
def outC (c : Dev nD) : Vec Ideal S160x1 .f32 := fun i => (run (X m c (i 0)) 7).c

/-- Each output's block at point `t` is block (t / 8, 0). -/
theorem idxO : ∀ t : Fin cfg0.N,
    (win0_1.index t (0 : Fin 2) = t.val / 8 ∧ win0_1.index t (1 : Fin 2) = 0)
    ∧ (win0_2.index t (0 : Fin 2) = t.val / 8 ∧ win0_2.index t (1 : Fin 2) = 0)
    ∧ (win0_3.index t (0 : Fin 2) = t.val / 8 ∧ win0_3.index t (1 : Fin 2) = 0) :=
  (by decide +kernel : ∀ t : Fin grid0.N,
    (win0_1.index t (0 : Fin 2) = t.val / 8 ∧ win0_1.index t (1 : Fin 2) = 0)
    ∧ (win0_2.index t (0 : Fin 2) = t.val / 8 ∧ win0_2.index t (1 : Fin 2) = 0)
    ∧ (win0_3.index t (0 : Fin 2) = t.val / 8 ∧ win0_3.index t (1 : Fin 2) = 0))

/-- At the last point `t` of a row block, row `y 0` of the scratch is the running state after the last
    block of array row 40 (t / 8) + y 0. -/
theorem last_state (c : Dev nD) (t : Fin cfg0.N) (h7 : t.val % 8 = 7) (y : S40x1.Idx) (i : S160x1.Idx)
    (hi : (i 0).val = 40 * (t.val / 8) + (y 0).val) :
    stAt m c t.val t.isLt (y 0) = run (X m c (i 0)) 7 := by
  have hN : cfg0.N = 32 := N_0
  have ht := t.isLt
  have hy : (y 0).val < 40 := (y 0).isLt
  have hi0 : (i 0).val < 160 := (i 0).isLt
  rw [stAt_eq m c t.val t.isLt (y 0), h7]
  congr 2
  apply Fin.ext
  show (40 * (t.val / 8) + (y 0).val) % 160 = (i 0).val
  omega

/-- A [40, 1] index is (its row, 0). -/
theorem col_ix (y : S40x1.Idx) : y = ix2 (y 0) (0 : Fin 1) := by
  funext a
  match a with
  | ⟨0, _⟩ => rfl
  | ⟨1, h⟩ =>
    apply Fin.ext
    have h1 : (y ⟨1, h⟩).val < 1 := (y ⟨1, h⟩).isLt
    show (y ⟨1, h⟩).val = 0
    omega

theorem colL (c : Dev nD) (t : Fin cfg0.N) (h7 : t.val % 8 = 7) (y : S40x1.Idx) (i : S160x1.Idx)
    (hi : (i 0).val = 40 * (t.val / 8) + (y 0).val) :
    (outsAt0 m c t.val t.isLt).2.2.2.2.1 y = outL m c i := by
  have h := congrArg St.l (last_state m c t h7 y i hi)
  rw [col_ix y]
  exact h

theorem colA (c : Dev nD) (t : Fin cfg0.N) (h7 : t.val % 8 = 7) (y : S40x1.Idx) (i : S160x1.Idx)
    (hi : (i 0).val = 40 * (t.val / 8) + (y 0).val) :
    (outsAt0 m c t.val t.isLt).2.2.2.2.2.1 y = outA m c i := by
  have h := congrArg St.a (last_state m c t h7 y i hi)
  rw [col_ix y]
  exact h

theorem colC (c : Dev nD) (t : Fin cfg0.N) (h7 : t.val % 8 = 7) (y : S40x1.Idx) (i : S160x1.Idx)
    (hi : (i 0).val = 40 * (t.val / 8) + (y 0).val) :
    (outsAt0 m c t.val t.isLt).2.2.2.2.2.2 y = outC m c i := by
  have h := congrArg St.c (last_state m c t h7 y i hi)
  rw [col_ix y]
  exact h

/-! ## The first output: the weights -/

theorem flushed1 (c : Dev nD) (t : Fin cfg0.N) (hf : (cfg0.win 1).flush t = true) :
    (dats m 0 c).flushed 1 t = ((cfg0.win 1).blk t).view.read (Elt Ideal) (outL m c) := by
  have h7 : t.val % 8 = 7 := (flush0_1 t).mp hf
  obtain ⟨⟨e0, e1⟩, -, -⟩ := idxO t
  show (cfg0.win 1).cut (grid0.coords t) ((dats m 0 c).after 1 t) = _
  rw [after0_1, (outs_last m c t h7).1]
  funext y
  exact colL m c t h7 y _ (by show win0_1.index t (0 : Fin 2) * 40 + 1 * (y 0).val = _; rw [e0]; omega)

theorem mem_blk1 (t : Fin cfg0.N) (i : S160x1.Idx) :
    i ∈ ((cfg0.win 1).blk t).view.set ↔ ∀ a : Fin 2, win0_1.index t a * S40x1.size a ≤ (i a).val ∧ (i a).val < win0_1.index t a * S40x1.size a + S40x1.size a := by
  show i ∈ ((View.whole main_v1_0).slice (win0_1.rect t)).set ↔ _
  rw [View.set_slice_whole, Rect.mem_set_unit]
  exact Iff.rfl

theorem cover1 (i : S160x1.Idx) : ∃ t : Fin cfg0.N, (cfg0.win 1).flush t = true ∧ i ∈ ((cfg0.win 1).blk t).view.set := by
  have hN : cfg0.N = 32 := N_0
  have h0 : (i 0).val < 160 := (i 0).isLt
  have h1 : (i 1).val < 1 := (i 1).isLt
  have hb : 8 * ((i 0).val / 40) + 7 < cfg0.N := by omega
  obtain ⟨⟨e0, e1⟩, -, -⟩ := idxO ⟨8 * ((i 0).val / 40) + 7, hb⟩
  refine ⟨⟨8 * ((i 0).val / 40) + 7, hb⟩, (flush0_1 _).mpr (by show (8 * ((i 0).val / 40) + 7) % 8 = 7; omega), ?_⟩
  rw [mem_blk1]
  intro a
  match a with
  | ⟨0, _⟩ =>
    show win0_1.index ⟨8 * ((i 0).val / 40) + 7, hb⟩ (0 : Fin 2) * 40 ≤ (i 0).val ∧ (i 0).val < win0_1.index ⟨8 * ((i 0).val / 40) + 7, hb⟩ (0 : Fin 2) * 40 + 40
    rw [e0]
    show (8 * ((i 0).val / 40) + 7) / 8 * 40 ≤ (i 0).val ∧ (i 0).val < (8 * ((i 0).val / 40) + 7) / 8 * 40 + 40
    omega
  | ⟨1, _⟩ =>
    show win0_1.index ⟨8 * ((i 0).val / 40) + 7, hb⟩ (1 : Fin 2) * 1 ≤ (i 1).val ∧ (i 1).val < win0_1.index ⟨8 * ((i 0).val / 40) + 7, hb⟩ (1 : Fin 2) * 1 + 1
    rw [e1]
    omega

/-- The first output array after the region: every row's weight. -/
theorem final1 (c : Dev nD) : (dats m 0 c).arrAt 1 cfg0.N = outL m c :=
  (dats m 0 c).arrAt_eq_of_cover 1 (outL m c) (fun t hf => flushed1 m c t hf) cover1

/-! ## The second output: the first moments -/

theorem flushed2 (c : Dev nD) (t : Fin cfg0.N) (hf : (cfg0.win 2).flush t = true) :
    (dats m 0 c).flushed 2 t = ((cfg0.win 2).blk t).view.read (Elt Ideal) (outA m c) := by
  have h7 : t.val % 8 = 7 := (flush0_2 t).mp hf
  obtain ⟨-, ⟨e0, e1⟩, -⟩ := idxO t
  show (cfg0.win 2).cut (grid0.coords t) ((dats m 0 c).after 2 t) = _
  rw [after0_2, (outs_last m c t h7).2.1]
  funext y
  exact colA m c t h7 y _ (by show win0_2.index t (0 : Fin 2) * 40 + 1 * (y 0).val = _; rw [e0]; omega)

theorem mem_blk2 (t : Fin cfg0.N) (i : S160x1.Idx) :
    i ∈ ((cfg0.win 2).blk t).view.set ↔ ∀ a : Fin 2, win0_2.index t a * S40x1.size a ≤ (i a).val ∧ (i a).val < win0_2.index t a * S40x1.size a + S40x1.size a := by
  show i ∈ ((View.whole main_v1_1).slice (win0_2.rect t)).set ↔ _
  rw [View.set_slice_whole, Rect.mem_set_unit]
  exact Iff.rfl

theorem cover2 (i : S160x1.Idx) : ∃ t : Fin cfg0.N, (cfg0.win 2).flush t = true ∧ i ∈ ((cfg0.win 2).blk t).view.set := by
  have hN : cfg0.N = 32 := N_0
  have h0 : (i 0).val < 160 := (i 0).isLt
  have h1 : (i 1).val < 1 := (i 1).isLt
  have hb : 8 * ((i 0).val / 40) + 7 < cfg0.N := by omega
  obtain ⟨-, ⟨e0, e1⟩, -⟩ := idxO ⟨8 * ((i 0).val / 40) + 7, hb⟩
  refine ⟨⟨8 * ((i 0).val / 40) + 7, hb⟩, (flush0_2 _).mpr (by show (8 * ((i 0).val / 40) + 7) % 8 = 7; omega), ?_⟩
  rw [mem_blk2]
  intro a
  match a with
  | ⟨0, _⟩ =>
    show win0_2.index ⟨8 * ((i 0).val / 40) + 7, hb⟩ (0 : Fin 2) * 40 ≤ (i 0).val ∧ (i 0).val < win0_2.index ⟨8 * ((i 0).val / 40) + 7, hb⟩ (0 : Fin 2) * 40 + 40
    rw [e0]
    show (8 * ((i 0).val / 40) + 7) / 8 * 40 ≤ (i 0).val ∧ (i 0).val < (8 * ((i 0).val / 40) + 7) / 8 * 40 + 40
    omega
  | ⟨1, _⟩ =>
    show win0_2.index ⟨8 * ((i 0).val / 40) + 7, hb⟩ (1 : Fin 2) * 1 ≤ (i 1).val ∧ (i 1).val < win0_2.index ⟨8 * ((i 0).val / 40) + 7, hb⟩ (1 : Fin 2) * 1 + 1
    rw [e1]
    omega

/-- The second output array after the region: every row's first moment. -/
theorem final2 (c : Dev nD) : (dats m 0 c).arrAt 2 cfg0.N = outA m c :=
  (dats m 0 c).arrAt_eq_of_cover 2 (outA m c) (fun t hf => flushed2 m c t hf) cover2

/-! ## The third output: the counts -/

theorem flushed3 (c : Dev nD) (t : Fin cfg0.N) (hf : (cfg0.win 3).flush t = true) :
    (dats m 0 c).flushed 3 t = ((cfg0.win 3).blk t).view.read (Elt Ideal) (outC m c) := by
  have h7 : t.val % 8 = 7 := (flush0_3 t).mp hf
  obtain ⟨-, -, ⟨e0, e1⟩⟩ := idxO t
  show (cfg0.win 3).cut (grid0.coords t) ((dats m 0 c).after 3 t) = _
  rw [after0_3, (outs_last m c t h7).2.2]
  funext y
  exact colC m c t h7 y _ (by show win0_3.index t (0 : Fin 2) * 40 + 1 * (y 0).val = _; rw [e0]; omega)

theorem mem_blk3 (t : Fin cfg0.N) (i : S160x1.Idx) :
    i ∈ ((cfg0.win 3).blk t).view.set ↔ ∀ a : Fin 2, win0_3.index t a * S40x1.size a ≤ (i a).val ∧ (i a).val < win0_3.index t a * S40x1.size a + S40x1.size a := by
  show i ∈ ((View.whole main_v1_2).slice (win0_3.rect t)).set ↔ _
  rw [View.set_slice_whole, Rect.mem_set_unit]
  exact Iff.rfl

theorem cover3 (i : S160x1.Idx) : ∃ t : Fin cfg0.N, (cfg0.win 3).flush t = true ∧ i ∈ ((cfg0.win 3).blk t).view.set := by
  have hN : cfg0.N = 32 := N_0
  have h0 : (i 0).val < 160 := (i 0).isLt
  have h1 : (i 1).val < 1 := (i 1).isLt
  have hb : 8 * ((i 0).val / 40) + 7 < cfg0.N := by omega
  obtain ⟨-, -, ⟨e0, e1⟩⟩ := idxO ⟨8 * ((i 0).val / 40) + 7, hb⟩
  refine ⟨⟨8 * ((i 0).val / 40) + 7, hb⟩, (flush0_3 _).mpr (by show (8 * ((i 0).val / 40) + 7) % 8 = 7; omega), ?_⟩
  rw [mem_blk3]
  intro a
  match a with
  | ⟨0, _⟩ =>
    show win0_3.index ⟨8 * ((i 0).val / 40) + 7, hb⟩ (0 : Fin 2) * 40 ≤ (i 0).val ∧ (i 0).val < win0_3.index ⟨8 * ((i 0).val / 40) + 7, hb⟩ (0 : Fin 2) * 40 + 40
    rw [e0]
    show (8 * ((i 0).val / 40) + 7) / 8 * 40 ≤ (i 0).val ∧ (i 0).val < (8 * ((i 0).val / 40) + 7) / 8 * 40 + 40
    omega
  | ⟨1, _⟩ =>
    show win0_3.index ⟨8 * ((i 0).val / 40) + 7, hb⟩ (1 : Fin 2) * 1 ≤ (i 1).val ∧ (i 1).val < win0_3.index ⟨8 * ((i 0).val / 40) + 7, hb⟩ (1 : Fin 2) * 1 + 1
    rw [e1]
    omega

/-- The third output array after the region: every row's count. -/
theorem final3 (c : Dev nD) : (dats m 0 c).arrAt 3 cfg0.N = outC m c :=
  (dats m 0 c).arrAt_eq_of_cover 3 (outC m c) (fun t hf => flushed3 m c t hf) cover3

end Cert.KernelIdeal.Final

end
-- ==== Proof.Online.lean ====
/-
  The online-softmax invariant.

  A row is met block by block. After blocks 0 … K the running state (maximum, weight, first
  moment, count) is the closed form over all entries of those blocks: the maximum is the largest
  positive entry seen so far (or the stand-in), and the weight and the moment are the sums of
  exp (x - M) and exp (x - M) · (x - M) over the positive entries against that maximum M.

  The reason is one identity over the reals: exp (m - mn) · exp (x - m) = exp (x - mn). So when the
  maximum moves from m to mn, multiplying the old weight by exp (m - mn) re-expresses every old
  term against mn, and the old moment ∑ w · (x - m) becomes ∑ w' · (x - mn) once the shift
  (m - mn) · ∑ w is added before rescaling. Every entry is a real and so is the stand-in, hence every
  maximum is a real (a finite nonempty supremum of reals is attained) and all the arithmetic can
  be done in ℝ and carried back along the coercion.
-/
import proofs.«177906_j35948876267666_1_alg».proof.Proof.Spec
import Mathlib.Algebra.BigOperators.Fin
import Mathlib.Data.Fintype.BigOperators
import Mathlib.Data.EReal.Operations

noncomputable section

namespace Cert.Ent

open Idealize.ShloMosaic

/-! ### The stand-in and the coercion -/

/-- The stand-in denotes the real -13234890 · 2^76. -/
theorem online_NEG_eq : NEG = (((-13234890 * 2 ^ 76 : ℝ)) : EReal) := by
  unfold NEG
  simp [Ideal.ofBits, Ideal.ieee, -EReal.coe_mul]

/-- The stand-in is a negative real. -/
theorem online_NEG_real : ∃ r : ℝ, NEG = (r : EReal) ∧ r < 0 :=
  ⟨_, online_NEG_eq, by norm_num⟩

/-- The extended-real sum of coerced reals is the coercion of the real sum. -/
theorem online_coe_sum {κ : Type} (s : Finset κ) (f : κ → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-! ### Weights over the reals -/

/-- The weight of a real entry against a real maximum, as a real. -/
def online_wexpR (m x : ℝ) : ℝ := if 0 < x then Real.exp (x - m) else 0

/-- On reals the weight is the coercion of the real weight. -/
theorem online_wexp_coe (m x : ℝ) :
    wexp (m : EReal) (x : EReal) = ((online_wexpR m x : ℝ) : EReal) := by
  unfold wexp online_wexpR
  by_cases h : 0 < x
  · rw [if_pos (EReal.coe_pos.2 h), if_pos h, ← EReal.coe_sub, Ideal.exp_coe]
  · rw [if_neg (fun h' => h (EReal.coe_pos.1 h')), if_neg h, EReal.coe_zero]

/-- Moving the maximum from m to mn: exp (m - mn) · w_m(x) = w_mn(x). -/
theorem online_wexpR_rescale (m mn x : ℝ) :
    Real.exp (m - mn) * online_wexpR m x = online_wexpR mn x := by
  unfold online_wexpR
  split_ifs
  · rw [← Real.exp_add]; congr 1; ring
  · rw [mul_zero]

/-- The weight of a family rescales to the new maximum. -/
theorem online_rescaleL {κ : Type} [Fintype κ] (m mn : ℝ) (y : κ → ℝ) :
    Ideal.exp ((m : EReal) - (mn : EReal)) * ∑ j, wexp (m : EReal) (y j : EReal)
      = ∑ j, wexp (mn : EReal) (y j : EReal) := by
  simp only [online_wexp_coe]
  rw [← online_coe_sum, ← online_coe_sum, ← EReal.coe_sub, Ideal.exp_coe, ← EReal.coe_mul,
    Finset.mul_sum]
  exact congrArg Real.toEReal (Finset.sum_congr rfl fun j _ => online_wexpR_rescale m mn (y j))

/-- The first moment of a family, shifted by (m - mn) times its weight, rescales to the new maximum. -/
theorem online_rescaleA {κ : Type} [Fintype κ] (m mn : ℝ) (y : κ → ℝ) :
    Ideal.exp ((m : EReal) - (mn : EReal)) *
        (∑ j, wexp (m : EReal) (y j : EReal) * ((y j : EReal) - (m : EReal))
          + ((m : EReal) - (mn : EReal)) * ∑ j, wexp (m : EReal) (y j : EReal))
      = ∑ j, wexp (mn : EReal) (y j : EReal) * ((y j : EReal) - (mn : EReal)) := by
  simp only [online_wexp_coe, ← EReal.coe_sub, ← EReal.coe_mul]
  rw [← online_coe_sum, ← online_coe_sum, ← online_coe_sum, ← EReal.coe_mul, ← EReal.coe_add,
    Ideal.exp_coe, ← EReal.coe_mul]
  refine congrArg Real.toEReal ?_
  rw [Finset.mul_sum, ← Finset.sum_add_distrib, Finset.mul_sum]
  refine Finset.sum_congr rfl fun j _ => ?_
  rw [← online_wexpR_rescale m mn (y j)]
  ring

/-! ### Maxima -/

/-- What the maximum sees of an entry is never below the stand-in. -/
theorem online_NEG_le_mval (x : EReal) : NEG ≤ mval x := by
  unfold mval
  split_ifs with h
  · obtain ⟨r, hr, hneg⟩ := online_NEG_real
    rw [hr]
    exact le_of_lt (lt_trans (EReal.coe_neg'.2 hneg) h)
  · exact le_rfl

/-- What the maximum sees of a real entry is a real. -/
theorem online_mval_real (x : ℝ) : ∃ r : ℝ, mval (x : EReal) = (r : EReal) := by
  unfold mval
  split_ifs
  · exact ⟨x, rfl⟩
  · obtain ⟨r, hr, _⟩ := online_NEG_real
    exact ⟨r, hr⟩

/-- The maximum of a nonempty real family is a real: the supremum is attained. -/
theorem online_rowM_real {κ : Type} [Fintype κ] [Nonempty κ] (y : κ → ℝ) :
    ∃ r : ℝ, rowM (fun j => (y j : EReal)) = (r : EReal) := by
  obtain ⟨j, -, hj⟩ := Finset.exists_mem_eq_sup (Finset.univ : Finset κ) Finset.univ_nonempty
    (fun j => mval (y j : EReal))
  obtain ⟨r, hr⟩ := online_mval_real (y j)
  exact ⟨r, by unfold rowM; rw [hj, hr]⟩

/-- The maximum of a nonempty family is never below the stand-in. -/
theorem online_NEG_le_rowM {κ : Type} [Fintype κ] [Nonempty κ] (x : κ → EReal) :
    NEG ≤ rowM x := by
  obtain ⟨j⟩ := (inferInstance : Nonempty κ)
  exact le_trans (online_NEG_le_mval (x j))
    (Finset.le_sup (f := fun j => mval (x j)) (Finset.mem_univ j))

/-! ### Splitting off the last block -/

/-- A sum over blocks 0 … K is the sum over blocks 0 … K-1 plus the sum over block K. -/
theorem online_sum_blocks {ι : Type} [Fintype ι] (f : ℕ → ι → EReal) (K : ℕ) :
    ∑ p : Fin (K + 1) × ι, f p.1.val p.2 = ∑ p : Fin K × ι, f p.1.val p.2 + ∑ q, f K q := by
  rw [Fintype.sum_prod_type, Fin.sum_univ_castSucc, Fintype.sum_prod_type]
  simp only [Fin.coe_castSucc, Fin.val_last]

/-- The maximum over blocks 0 … K is the larger of the maximum over blocks 0 … K-1 and that of block K. -/
theorem online_rowM_blocks {ι : Type} [Fintype ι] (X : ℕ → ι → EReal) (K : ℕ) :
    rowM (fun p : Fin (K + 1) × ι => X p.1.val p.2)
      = max (rowM (fun p : Fin K × ι => X p.1.val p.2)) (rowM (X K)) := by
  unfold rowM
  apply le_antisymm
  · refine Finset.sup_le fun p _ => ?_
    obtain ⟨i, q⟩ := p
    induction i using Fin.lastCases with
    | last =>
      exact le_max_of_le_right
        (Finset.le_sup (f := fun q => mval (X K q)) (Finset.mem_univ q))
    | cast i =>
      exact le_max_of_le_left
        (Finset.le_sup (f := fun p : Fin K × ι => mval (X p.1.val p.2)) (Finset.mem_univ (i, q)))
  · refine max_le (Finset.sup_le fun p _ => ?_) (Finset.sup_le fun q _ => ?_)
    · exact Finset.le_sup (f := fun p : Fin (K + 1) × ι => mval (X p.1.val p.2))
        (Finset.mem_univ (p.1.castSucc, p.2))
    · exact Finset.le_sup (f := fun p : Fin (K + 1) × ι => mval (X p.1.val p.2))
        (Finset.mem_univ (Fin.last K, q))

/-- The maximum of an empty family is the bottom. -/
theorem online_rowM_empty {κ : Type} [Fintype κ] [IsEmpty κ] (x : κ → EReal) : rowM x = ⊥ := by
  unfold rowM
  rw [Finset.univ_eq_empty, Finset.sup_empty]

/-! ### Closed forms -/

/-- The closed form of a family, written against a name M for its maximum. -/
theorem online_closed_eq {κ : Type} [Fintype κ] (x : κ → EReal) (M : EReal) (hM : rowM x = M) :
    (⟨rowM x, rowL x, rowA x, rowC x⟩ : St)
      = ⟨M, ∑ j, wexp M (x j), ∑ j, wexp M (x j) * (x j - M), ∑ j, ind (x j)⟩ := by
  subst hM
  rfl

/-- The closed form over blocks 0 … K, split into blocks 0 … K-1 and block K, all against the
    maximum M over blocks 0 … K. -/
theorem online_closed_blocks {ι : Type} [Fintype ι] (X : ℕ → ι → EReal) (K : ℕ) (M : EReal)
    (hM : rowM (fun p : Fin (K + 1) × ι => X p.1.val p.2) = M) :
    (⟨rowM (fun p : Fin (K + 1) × ι => X p.1.val p.2), rowL (fun p : Fin (K + 1) × ι => X p.1.val p.2),
      rowA (fun p : Fin (K + 1) × ι => X p.1.val p.2), rowC (fun p : Fin (K + 1) × ι => X p.1.val p.2)⟩ : St)
      = ⟨M, ∑ p : Fin K × ι, wexp M (X p.1.val p.2) + ∑ q, wexp M (X K q),
          ∑ p : Fin K × ι, wexp M (X p.1.val p.2) * (X p.1.val p.2 - M)
            + ∑ q, wexp M (X K q) * (X K q - M),
          ∑ p : Fin K × ι, ind (X p.1.val p.2) + ∑ q, ind (X K q)⟩ := by
  have h1 : ∑ p : Fin (K + 1) × ι, wexp M (X p.1.val p.2)
      = ∑ p : Fin K × ι, wexp M (X p.1.val p.2) + ∑ q, wexp M (X K q) :=
    online_sum_blocks (fun k q => wexp M (X k q)) K
  have h2 : ∑ p : Fin (K + 1) × ι, wexp M (X p.1.val p.2) * (X p.1.val p.2 - M)
      = ∑ p : Fin K × ι, wexp M (X p.1.val p.2) * (X p.1.val p.2 - M)
        + ∑ q, wexp M (X K q) * (X K q - M) :=
    online_sum_blocks (fun k q => wexp M (X k q) * (X k q - M)) K
  have h3 : ∑ p : Fin (K + 1) × ι, ind (X p.1.val p.2)
      = ∑ p : Fin K × ι, ind (X p.1.val p.2) + ∑ q, ind (X K q) :=
    online_sum_blocks (fun k q => ind (X k q)) K
  rw [online_closed_eq _ M hM, h1, h2, h3]

/-! ### One block folded into a closed form -/

/-- A state that is the closed form of a real family y against a real maximum m, with one more real
    block b folded in, is the closed form of y and b together against the new maximum mn. -/
theorem online_step_closed {κ ι : Type} [Fintype κ] [Fintype ι] (m mn : ℝ) (y : κ → ℝ) (b : ι → ℝ)
    (hmn : max (m : EReal) (rowM fun q => (b q : EReal)) = (mn : EReal)) (c : EReal) :
    step ⟨(m : EReal), ∑ j, wexp (m : EReal) (y j : EReal),
          ∑ j, wexp (m : EReal) (y j : EReal) * ((y j : EReal) - (m : EReal)), c⟩
        (fun q => (b q : EReal))
      = ⟨(mn : EReal),
         ∑ j, wexp (mn : EReal) (y j : EReal) + ∑ q, wexp (mn : EReal) (b q : EReal),
         ∑ j, wexp (mn : EReal) (y j : EReal) * ((y j : EReal) - (mn : EReal))
           + ∑ q, wexp (mn : EReal) (b q : EReal) * ((b q : EReal) - (mn : EReal)),
         c + ∑ q, ind (b q : EReal)⟩ := by
  have hmn' : max (m : EReal) (Finset.univ.sup fun q => mval (b q : EReal)) = (mn : EReal) := hmn
  simp only [step, hmn', online_rescaleL, online_rescaleA]

/-! ### The invariant -/

/-- The running state after blocks 0 … K is the closed form over all entries of those blocks. -/
theorem run_eq_row {ι : Type} [Fintype ι] [Nonempty ι] (X : ℕ → ι → EReal)
    (hX : ∀ k q, ∃ r : ℝ, X k q = (r : EReal)) (K : ℕ) :
    run X K = ⟨rowM (fun p : Fin (K + 1) × ι => X p.1.val p.2), rowL (fun p : Fin (K + 1) × ι => X p.1.val p.2),
               rowA (fun p : Fin (K + 1) × ι => X p.1.val p.2), rowC (fun p : Fin (K + 1) × ι => X p.1.val p.2)⟩ := by
  choose Xr hXr using hX
  obtain rfl : X = fun k q => (Xr k q : EReal) := funext fun k => funext fun q => hXr k q
  clear hXr
  induction K with
  | zero =>
    -- block 0 alone: the state before it is the closed form of the empty family against the stand-in
    obtain ⟨r0, hr0, -⟩ := online_NEG_real
    obtain ⟨B, hB⟩ := online_rowM_real (fun q => Xr 0 q)
    have hmax : max (r0 : EReal) (rowM fun q => (Xr 0 q : EReal)) = (B : EReal) := by
      rw [← hr0, max_eq_right (online_NEG_le_rowM _), hB]
    have hM : rowM (fun p : Fin (0 + 1) × ι => (fun k q => (Xr k q : EReal)) p.1.val p.2) = (B : EReal) := by
      refine (online_rowM_blocks (fun k q => (Xr k q : EReal)) 0).trans ?_
      rw [online_rowM_empty, max_bot_left]
      exact hB
    have hinit : init = ⟨(r0 : EReal), ∑ p : Fin 0 × ι, wexp (r0 : EReal) ((Xr p.1.val p.2 : ℝ) : EReal),
        ∑ p : Fin 0 × ι, wexp (r0 : EReal) ((Xr p.1.val p.2 : ℝ) : EReal)
          * (((Xr p.1.val p.2 : ℝ) : EReal) - (r0 : EReal)),
        ∑ p : Fin 0 × ι, ind ((Xr p.1.val p.2 : ℝ) : EReal)⟩ := by
      simp [init, hr0]
    show step init _ = _
    rw [hinit]
    refine (online_step_closed r0 B (fun p : Fin 0 × ι => Xr p.1.val p.2) (fun q => Xr 0 q) hmax _).trans ?_
    exact (online_closed_blocks (fun k q => (Xr k q : EReal)) 0 (B : EReal) hM).symm
  | succ K ih =>
    -- the old maximum, the block's maximum and the new maximum are reals
    obtain ⟨m, hm⟩ := online_rowM_real (fun p : Fin (K + 1) × ι => Xr p.1.val p.2)
    obtain ⟨B, hB⟩ := online_rowM_real (fun q => Xr (K + 1) q)
    obtain ⟨mn, hmn0⟩ : ∃ mn : ℝ, max (m : EReal) (B : EReal) = (mn : EReal) := by
      rcases max_choice (m : EReal) (B : EReal) with h | h
      · exact ⟨m, h⟩
      · exact ⟨B, h⟩
    have hmn : max (m : EReal) (rowM fun q => (Xr (K + 1) q : EReal)) = (mn : EReal) := by
      rw [hB, hmn0]
    have hM : rowM (fun p : Fin (K + 1 + 1) × ι => (fun k q => (Xr k q : EReal)) p.1.val p.2) = (mn : EReal) := by
      refine (online_rowM_blocks (fun k q => (Xr k q : EReal)) (K + 1)).trans ?_
      exact (congrArg (fun t => max t _) hm).trans hmn
    show step (run _ K) _ = _
    rw [ih]
    refine (congrArg (fun s => step s _) (online_closed_eq _ (m : EReal) hm)).trans ?_
    refine (online_step_closed m mn (fun p : Fin (K + 1) × ι => Xr p.1.val p.2) (fun q => Xr (K + 1) q) hmn _).trans ?_
    exact (online_closed_blocks (fun k q => (Xr k q : EReal)) (K + 1) (mn : EReal) hM).symm

end Cert.Ent

end
-- ==== Proof.Entropy.lean ====
/-
  A row's entropy in bits, computed from the row's weight l and first moment a, equals the
  reference's -∑ p · log p / ln 2 over the positive entries, when every entry is a real number.

  Two cases. With no positive entry both sides are 0: the weight and the moment vanish, the
  guarded divisor is one, and every summand of the reference is 0. With a positive entry the
  row's maximum M is a positive real, so the reference's guard keeps M, its normaliser s is
  the weight l > 0, and over the reals
    (log l · l - a) / (l · ln 2) = -(∑ (e_j / l) · ((x_j - M) - log l)) / ln 2
  because ∑ e_j (x_j - M) = a and ∑ e_j = l, where e_j = exp (x_j - M) on the positive entries.
-/
import proofs.«177906_j35948876267666_1_alg».proof.Proof.Spec
import Mathlib.Analysis.SpecialFunctions.Log.Basic
import Mathlib.Algebra.BigOperators.Ring.Finset
import Mathlib.Algebra.Order.BigOperators.Group.Finset
import Mathlib.Tactic.FieldSimp
import Mathlib.Tactic.Ring
import Mathlib.Tactic.Linarith

noncomputable section

namespace Cert.Ent

open Idealize.ShloMosaic

/-! ### The four constants as extended reals -/

/-- The constant one denotes 1. -/
theorem ONE_eq : ONE = 1 := by
  simp [Ideal.ofBits, Ideal.ieee, -EReal.coe_mul]; norm_num

/-- The constant one half denotes the real 1/2. -/
theorem HALF_eq : HALF = ((1 / 2 : ℝ) : EReal) := by
  simp [Ideal.ofBits, Ideal.ieee, -EReal.coe_mul]; norm_num

/-- The stand-in for "no positive entry" denotes a negative real. -/
theorem NEG_real : ∃ r : ℝ, NEG = (r : EReal) ∧ r < 0 := by
  simp [Ideal.ofBits, Ideal.ieee, -EReal.coe_mul]
  exact ⟨-(13234890 * 2 ^ 76), (EReal.coe_neg _).symm, by norm_num⟩

/-- The divisor that turns nats into bits denotes a positive real. -/
theorem LN2_real : ∃ r : ℝ, LN2 = (r : EReal) ∧ 0 < r := by
  simp [Ideal.ofBits, Ideal.ieee, -EReal.coe_mul]

/-! ### Sums of reals inside the extended reals -/

/-- The inclusion of the reals commutes with finite sums. -/
theorem coe_sum {κ : Type} (s : Finset κ) (f : κ → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-! ### A row with no positive entry -/

/-- With zero weight and zero moment the entropy is 0: the guarded divisor is one times ln 2. -/
theorem kernelEnt_zero : kernelEnt 0 0 = 0 := by
  obtain ⟨c, hc, hcpos⟩ := LN2_real
  unfold kernelEnt
  rw [if_neg (lt_irrefl _), hc, ONE_eq, one_mul, Ideal.div_coe hcpos.ne', mul_zero, sub_zero,
    zero_mul]

/-- A row without positive entries: both entropies are 0. -/
theorem ent_of_no_pos {κ : Type} [Fintype κ] (x : κ → EReal) (h : ∀ j, ¬ 0 < x j) :
    kernelEnt (rowL x) (rowA x) = refEnt x := by
  have hw : ∀ m j, wexp m (x j) = 0 := fun m j => if_neg (h j)
  have hl : rowL x = 0 := by simp [rowL, hw]
  have ha : rowA x = 0 := by simp [rowA, hw]
  rw [hl, ha, kernelEnt_zero]
  obtain ⟨c, hc, hcpos⟩ := LN2_real
  simp [refEnt, hw, h, hc, Ideal.div_coe hcpos.ne']

/-! ### A row with a positive entry -/

/-- A row of reals with a positive entry: the two entropies agree. -/
theorem ent_of_pos {κ : Type} [Fintype κ] (x : κ → EReal) (r : κ → ℝ)
    (hr : ∀ j, x j = (r j : EReal)) (j0 : κ) (h0 : 0 < x j0) :
    kernelEnt (rowL x) (rowA x) = refEnt x := by
  obtain ⟨n, hn, hnneg⟩ := NEG_real
  obtain ⟨c, hc, hcpos⟩ := LN2_real
  have hr0 : 0 < r j0 := by
    rw [hr j0] at h0; exact_mod_cast h0
  -- the row's maximum is attained, hence a real number M
  obtain ⟨i, -, hi⟩ := Finset.exists_mem_eq_sup Finset.univ ⟨j0, Finset.mem_univ j0⟩
    (fun j => mval (x j))
  obtain ⟨M, hM⟩ : ∃ M : ℝ, rowM x = (M : EReal) := by
    unfold rowM; rw [hi]; unfold mval; split_ifs
    · exact ⟨r i, hr i⟩
    · exact ⟨n, hn⟩
  -- M is at least the positive entry, hence positive
  have hM0 : 0 < M := by
    have h1 : mval (x j0) ≤ rowM x :=
      Finset.le_sup (f := fun j => mval (x j)) (Finset.mem_univ j0)
    rw [mval, if_pos h0, hM, hr j0] at h1
    have h2 : r j0 ≤ M := by exact_mod_cast h1
    linarith
  -- the weights e_j as reals
  obtain ⟨e, he⟩ : ∃ e : κ → ℝ, ∀ j, e j = if 0 < r j then Real.exp (r j - M) else 0 :=
    ⟨_, fun _ => rfl⟩
  have hw : ∀ j, wexp (M : EReal) (x j) = (e j : EReal) := by
    intro j
    unfold wexp; rw [hr j, he j]
    by_cases hj : 0 < r j
    · have hjE : (0 : EReal) < (r j : EReal) := by exact_mod_cast hj
      rw [if_pos hjE, if_pos hj, ← EReal.coe_sub, Ideal.exp_coe]
    · have hjE : ¬ (0 : EReal) < (r j : EReal) := by exact_mod_cast hj
      rw [if_neg hjE, if_neg hj, EReal.coe_zero]
  obtain ⟨l, hldef⟩ : ∃ l : ℝ, l = ∑ j, e j := ⟨_, rfl⟩
  obtain ⟨a, hadef⟩ : ∃ a : ℝ, a = ∑ j, e j * (r j - M) := ⟨_, rfl⟩
  have hl : rowL x = (l : EReal) := by
    unfold rowL; rw [hM, hldef, coe_sum]; exact Finset.sum_congr rfl (fun j _ => hw j)
  have ha : rowA x = (a : EReal) := by
    unfold rowA; rw [hM, hadef, coe_sum]; refine Finset.sum_congr rfl (fun j _ => ?_)
    rw [hw j, hr j, ← EReal.coe_sub, ← EReal.coe_mul]
  -- the weight is positive: every e_j is non-negative and e_{j0} is positive
  have hlpos : 0 < l := by
    have hnn : ∀ j ∈ Finset.univ, 0 ≤ e j := by
      intro j _; rw [he j]; split_ifs
      · exact (Real.exp_pos _).le
      · exact le_rfl
    have hpos : 0 < e j0 := by rw [he j0, if_pos hr0]; exact Real.exp_pos _
    rw [hldef]; exact Finset.sum_pos' hnn ⟨j0, Finset.mem_univ _, hpos⟩
  have hlE : (0 : EReal) < (l : EReal) := by exact_mod_cast hlpos
  -- the kernel's side as a real
  have hk : kernelEnt (l : EReal) (a : EReal)
      = (((Real.log l * l - a) * (1 / (l * c)) : ℝ) : EReal) := by
    unfold kernelEnt
    rw [if_pos hlE, hc, Ideal.log_coe, if_neg (not_le.mpr hlpos), ← EReal.coe_mul,
      ← EReal.coe_sub, ← EReal.coe_mul, Ideal.div_coe (mul_pos hlpos hcpos).ne', ← EReal.coe_mul]
  -- the reference's guard keeps the maximum
  have hm' : (if rowM x ≤ NEG * HALF then 0 else rowM x) = (M : EReal) := by
    rw [hM, hn, HALF_eq, ← EReal.coe_mul, if_neg]
    rw [EReal.coe_le_coe_iff]; linarith
  -- the reference's normaliser is the weight
  have hs : (0 : EReal) + ∑ j, wexp (M : EReal) (x j) = (l : EReal) := by
    rw [zero_add, hldef, coe_sum]; exact Finset.sum_congr rfl (fun j _ => hw j)
  -- each summand of the reference as a real
  have hterm : ∀ j, (if 0 < x j then
        Ideal.div (wexp (M : EReal) (x j)) (l : EReal) * ((x j - (M : EReal)) - Ideal.log (l : EReal))
      else 0)
      = ((if 0 < r j then (e j * (1 / l)) * ((r j - M) - Real.log l) else 0 : ℝ) : EReal) := by
    intro j
    rw [hw j, hr j, Ideal.div_coe hlpos.ne', Ideal.log_coe, if_neg (not_le.mpr hlpos)]
    by_cases hj : 0 < r j
    · have hjE : (0 : EReal) < (r j : EReal) := by exact_mod_cast hj
      rw [if_pos hjE, if_pos hj, ← EReal.coe_mul, ← EReal.coe_sub, ← EReal.coe_sub,
        ← EReal.coe_mul]
    · have hjE : ¬ (0 : EReal) < (r j : EReal) := by exact_mod_cast hj
      rw [if_neg hjE, if_neg hj, EReal.coe_zero]
  have href : refEnt x
      = ((-(∑ j, if 0 < r j then (e j * (1 / l)) * ((r j - M) - Real.log l) else 0) * (1 / c) : ℝ) :
          EReal) := by
    dsimp only [refEnt]
    rw [hm', hs, if_pos hlE, zero_add, hc, Ideal.div_coe hcpos.ne', EReal.coe_mul, EReal.coe_neg,
      coe_sum]
    exact congrArg (fun t => -t * ((1 / c : ℝ) : EReal)) (Finset.sum_congr rfl (fun j _ => hterm j))
  -- the sum of the reference's summands in closed form
  have hsumR : (∑ j, if 0 < r j then (e j * (1 / l)) * ((r j - M) - Real.log l) else 0)
      = (1 / l) * (a - Real.log l * l) := by
    have hj : ∀ j, (if 0 < r j then (e j * (1 / l)) * ((r j - M) - Real.log l) else 0)
        = (1 / l) * (e j * (r j - M)) - (1 / l) * Real.log l * e j := by
      intro j
      by_cases hj : 0 < r j
      · rw [if_pos hj]; ring
      · have h0 : e j = 0 := by rw [he j, if_neg hj]
        rw [if_neg hj, h0]; ring
    simp only [hj, Finset.sum_sub_distrib, ← Finset.mul_sum]
    rw [← hldef, ← hadef]; ring
  rw [hl, ha, hk, href, hsumR]
  congr 1
  have hl0 : l ≠ 0 := hlpos.ne'
  have hc0 : c ≠ 0 := hcpos.ne'
  field_simp
  ring

/-! ### The statement -/

/-- For a row of reals, the entropy computed from the weight and the first moment is the
    reference's entropy. -/
theorem kernelEnt_eq_refEnt {κ : Type} [Fintype κ] [Nonempty κ] (x : κ → EReal)
    (hx : ∀ j, ∃ r : ℝ, x j = (r : EReal)) :
    kernelEnt (rowL x) (rowA x) = refEnt x := by
  choose r hr using hx
  by_cases h : ∃ j, 0 < x j
  · obtain ⟨j0, h0⟩ := h
    exact ent_of_pos x r hr j0 h0
  · exact ent_of_no_pos x (fun j hj => h ⟨j, hj⟩)

end Cert.Ent

end
-- ==== Proof.Reindex.lean ====
/-
  A row's quantities do not depend on how its entries are listed.

  The kernel meets a row as 8 blocks of 32768 lanes, the reference as 262144 lanes in a line. The
  maximum, the sums and hence both entropies only see the family of entries, so they agree along
  any bijection of the index types.
-/
import proofs.«177906_j35948876267666_1_alg».proof.Proof.Spec

noncomputable section

namespace Cert.Ent

open Idealize.ShloMosaic

variable {κ κ' : Type} [Fintype κ] [Fintype κ']

theorem rowM_comp (e : κ' ≃ κ) (x : κ → EReal) : rowM (fun j => x (e j)) = rowM x := by
  unfold rowM
  rw [Finset.sup_univ_eq_iSup, Finset.sup_univ_eq_iSup]
  exact e.iSup_comp (g := fun j => mval (x j))

theorem rowL_comp (e : κ' ≃ κ) (x : κ → EReal) : rowL (fun j => x (e j)) = rowL x := by
  unfold rowL
  rw [rowM_comp e x]
  exact Equiv.sum_comp e (fun j => wexp (rowM x) (x j))

theorem rowA_comp (e : κ' ≃ κ) (x : κ → EReal) : rowA (fun j => x (e j)) = rowA x := by
  unfold rowA
  rw [rowM_comp e x]
  exact Equiv.sum_comp e (fun j => wexp (rowM x) (x j) * (x j - rowM x))

theorem rowC_comp (e : κ' ≃ κ) (x : κ → EReal) : rowC (fun j => x (e j)) = rowC x := by
  unfold rowC
  exact Equiv.sum_comp e (fun j => ind (x j))

theorem refEnt_comp (e : κ' ≃ κ) (x : κ → EReal) : refEnt (fun j => x (e j)) = refEnt x := by
  unfold refEnt
  rw [rowM_comp e x]
  dsimp only
  have h1 : ∀ mm : EReal, (∑ j, wexp mm (x (e j))) = ∑ j, wexp mm (x j) :=
    fun mm => Equiv.sum_comp e (fun j => wexp mm (x j))
  have h2 : ∀ mm ss : EReal,
      (∑ j, (if 0 < x (e j) then Ideal.div (wexp mm (x (e j))) ss * ((x (e j) - mm) - Ideal.log ss) else 0))
        = ∑ j, (if 0 < x j then Ideal.div (wexp mm (x j)) ss * ((x j - mm) - Ideal.log ss) else 0) :=
    fun mm ss => Equiv.sum_comp e (fun j => if 0 < x j then Ideal.div (wexp mm (x j)) ss * ((x j - mm) - Ideal.log ss) else 0)
  rw [h1, h2]

end Cert.Ent

end
-- ==== Proof.Bridge.lean ====
/-
  From the kernel's running state to the rows' closed forms.

  The region reads the heatmap re-laid as 160 rows: row 20 n + c is row (n, c), its 262144 entries in
  row-major order, met by the kernel as 8 blocks of 32768. With every entry real, the running state
  after the 8 blocks is the closed form over all of the row's entries (the online-softmax invariant),
  the closed forms do not depend on the listing, and the kernel's entropy of a row is the reference's.
-/
import proofs.«177906_j35948876267666_1_alg».proof.Proof.KFinal
import proofs.«177906_j35948876267666_1_alg».proof.Proof.Online
import proofs.«177906_j35948876267666_1_alg».proof.Proof.Entropy
import proofs.«177906_j35948876267666_1_alg».proof.Proof.Reindex
import Idealize.ShloMosaic.Lib.StableHlo.Run

noncomputable section

namespace Cert.KernelIdeal.Bridge

open Cert.KernelIdeal Cert.KernelIdeal.Gen Cert.KernelIdeal.Pay Cert.KernelIdeal.Inv Cert.KernelIdeal.Final Cert.Ent
open Idealize.ShloMosaic Idealize.ShloMosaic.TcCoe Idealize.SL.Sem Idealize.ShloMosaic.ValueIdx Idealize.ShloMosaic.StableHlo

variable (m : (ℓ : Loc nD τ sig) → Buf (Elt Ideal) ℓ)

/-- Block k, lane q of a row is its entry 32768 k + q. -/
def blockEquiv : Fin 8 × Fin 32768 ≃ Fin 262144 where
  toFun p := ⟨32768 * p.1.val + p.2.val, by have := p.1.isLt; have := p.2.isLt; omega⟩
  invFun j := (⟨j.val / 32768, by have := j.isLt; omega⟩, ⟨j.val % 32768, by omega⟩)
  left_inv p := by
    have h1 := p.1.isLt
    have h2 := p.2.isLt
    apply Prod.ext
    · apply Fin.ext; show (32768 * p.1.val + p.2.val) / 32768 = p.1.val; omega
    · apply Fin.ext; show (32768 * p.1.val + p.2.val) % 32768 = p.2.val; omega
  right_inv j := by
    apply Fin.ext; show 32768 * (j.val / 32768) + j.val % 32768 = j.val; omega

/-- Entry (20 n + c, j) of the array the region reads is entry j of row (n, c) of the heatmap. -/
theorem xarr_apply (c : Dev nD) (n : Fin 8) (ch : Fin 20) (j : Fin 262144) (r : Fin 160) (hr : r.val = 20 * n.val + ch.val) :
    xarr m c (ix2 r j) = rowOf (m ((c : Thread nD τ).loc main_arg0)) n ch j := by
  have e : (V m c main_v0 : S160x262144.Idx → EReal)
      = shapeCast S160x262144 (m ((c : Thread nD τ).loc main_arg0)) shapeCasts_S8x20x512x512_S160x262144 := by
    show StableHlo.after hostOps0 (fun b => m (c, b)) (Proc.devRef .tc main_v0) = _
    after_results
    rfl
  show V m c main_v0 (ix2 r j) = _
  rw [e]
  unfold rowOf
  have hn := n.isLt
  have hc := ch.isLt
  have hj := j.isLt
  exact shapeCast_apply _ shapeCasts_S8x20x512x512_S160x262144 (ix2 r j) _
    (by rewrite [Shape.rowMajor_val_four, Shape.rowMajor_val_two]
        show ((n.val * 20 + ch.val) * 512 + j.val / 512) * 512 + j.val % 512 = r.val * 262144 + j.val
        omega)

/-- The running state of row 20 n + c after its 8 blocks is the closed form of row (n, c). -/
theorem row_closed (c : Dev nD)
    (hfin : ∀ i, ∃ s : ℝ, m ((c : Thread nD τ).loc main_arg0) i = (s : EReal))
    (n : Fin 8) (ch : Fin 20) (r : Fin 160) (hr : r.val = 20 * n.val + ch.val) :
    run (X m c r) 7 = ⟨rowM (rowOf (m ((c : Thread nD τ).loc main_arg0)) n ch), rowL (rowOf (m ((c : Thread nD τ).loc main_arg0)) n ch),
      rowA (rowOf (m ((c : Thread nD τ).loc main_arg0)) n ch), rowC (rowOf (m ((c : Thread nD τ).loc main_arg0)) n ch)⟩ := by
  have hX : ∀ k q, ∃ s : ℝ, X m c r k q = (s : EReal) := fun k q => by
    unfold X
    rw [xarr_apply m c n ch _ r hr]
    exact hfin _
  have hy : (fun p : Fin (7 + 1) × Fin 32768 => X m c r p.1.val p.2)
      = fun p => rowOf (m ((c : Thread nD τ).loc main_arg0)) n ch (blockEquiv p) := by
    funext p
    have h1 : p.1.val < 8 := p.1.isLt
    unfold X
    rw [xarr_apply m c n ch _ r hr]
    congr 1
    apply Fin.ext
    show 32768 * (p.1.val % 8) + p.2.val = 32768 * p.1.val + p.2.val
    omega
  rw [run_eq_row (X m c r) hX 7, hy,
    rowM_comp blockEquiv, rowL_comp blockEquiv, rowA_comp blockEquiv, rowC_comp blockEquiv]

theorem outL_ix (c : Dev nD) (r : Fin 160) : outL m c (ix2 r (0 : Fin 1)) = (run (X m c r) 7).l := rfl
theorem outA_ix (c : Dev nD) (r : Fin 160) : outA m c (ix2 r (0 : Fin 1)) = (run (X m c r) 7).a := rfl
theorem outC_ix (c : Dev nD) (r : Fin 160) : outC m c (ix2 r (0 : Fin 1)) = (run (X m c r) 7).c := rfl

/-- The kernel's epilogue applied to the three output arrays is the reference's formula over the rows. -/
theorem kernel_value (c : Dev nD)
    (hfin : ∀ i, ∃ s : ℝ, m ((c : Thread nD τ).loc main_arg0) i = (s : EReal)) (n : Fin 8) :
    Ideal.div (0 + ∑ ch : Fin 20, kernelEnt (outL m c (ix2 ⟨20 * n.val + ch.val, by have := n.isLt; have := ch.isLt; omega⟩ (0 : Fin 1)))
                                          (outA m c (ix2 ⟨20 * n.val + ch.val, by have := n.isLt; have := ch.isLt; omega⟩ (0 : Fin 1))))
              (0 + ∑ ch : Fin 20, outC m c (ix2 ⟨20 * n.val + ch.val, by have := n.isLt; have := ch.isLt; omega⟩ (0 : Fin 1)))
      = Ideal.div (0 + ∑ ch : Fin 20, refEnt (rowOf (m ((c : Thread nD τ).loc main_arg0)) n ch))
                  (0 + ∑ ch : Fin 20, rowC (rowOf (m ((c : Thread nD τ).loc main_arg0)) n ch)) := by
  have hne : Nonempty (Fin 262144) := ⟨⟨0, by decide⟩⟩
  have key : ∀ ch : Fin 20,
      kernelEnt (outL m c (ix2 ⟨20 * n.val + ch.val, by have := n.isLt; have := ch.isLt; omega⟩ (0 : Fin 1)))
                (outA m c (ix2 ⟨20 * n.val + ch.val, by have := n.isLt; have := ch.isLt; omega⟩ (0 : Fin 1)))
        = refEnt (rowOf (m ((c : Thread nD τ).loc main_arg0)) n ch)
      ∧ outC m c (ix2 ⟨20 * n.val + ch.val, by have := n.isLt; have := ch.isLt; omega⟩ (0 : Fin 1))
        = rowC (rowOf (m ((c : Thread nD τ).loc main_arg0)) n ch) := by
    intro ch
    have h := row_closed m c hfin n ch ⟨20 * n.val + ch.val, by have := n.isLt; have := ch.isLt; omega⟩ rfl
    have hl : outL m c (ix2 ⟨20 * n.val + ch.val, by have := n.isLt; have := ch.isLt; omega⟩ (0 : Fin 1))
        = rowL (rowOf (m ((c : Thread nD τ).loc main_arg0)) n ch) := by rw [outL_ix, h]
    have ha : outA m c (ix2 ⟨20 * n.val + ch.val, by have := n.isLt; have := ch.isLt; omega⟩ (0 : Fin 1))
        = rowA (rowOf (m ((c : Thread nD τ).loc main_arg0)) n ch) := by rw [outA_ix, h]
    have hc : outC m c (ix2 ⟨20 * n.val + ch.val, by have := n.isLt; have := ch.isLt; omega⟩ (0 : Fin 1))
        = rowC (rowOf (m ((c : Thread nD τ).loc main_arg0)) n ch) := by rw [outC_ix, h]
    refine ⟨?_, hc⟩
    rw [hl, ha]
    exact kernelEnt_eq_refEnt _ (fun j => hfin _)
  rw [Finset.sum_congr rfl (fun ch _ => (key ch).1), Finset.sum_congr rfl (fun ch _ => (key ch).2)]

end Cert.KernelIdeal.Bridge

end
-- ==== Proof.KTail.lean ====
/-
  The host epilogue of the idealized kernel program, as one function of the kernel region's three outputs.

  The region leaves, for each of the 160 rows (n, c) of the heatmap, the row's weight l, its first moment a and its
  count of positive entries, each as a [160, 1] array. The epilogue reads the three arrays as [8, 20], guards the
  weight (s = l where l > 0, else 1), forms the row's entropy in bits (log s · l - a) / (s · ln 2), sums the entropies
  and the counts over the 20 channels of each n, and divides the first sum by the second. `tail` is that composition;
  `tail_run` says the program's last buffer holds it after the run; `tail_apply` reads it at an index n over the
  extended reals as the quotient of the two channel sums, the entropy of row 20 n + c being `kernelEnt` of its weight
  and moment.
-/
import proofs.«177906_j35948876267666_1_alg».proof.Proof.Gen.KernelIdeal.Frame
import proofs.«177906_j35948876267666_1_alg».proof.Proof.Spec
import Idealize.ShloMosaic.Lib.Pipeline.Value
import Idealize.ShloMosaic.Lib.StableHlo.Run
import Idealize.ShloMosaic.Lib.ValueIdx
import Idealize.ShloMosaic.Lib.IdealHost
import Idealize.ShloMosaic.PureOps.Ideal.Laws

noncomputable section

namespace Cert.KernelIdeal.Tail

open Cert.KernelIdeal Cert.KernelIdeal.Gen Cert.Ent Idealize.ShloMosaic Idealize.ShloMosaic.TcCoe Idealize.SL.Sem Idealize.ShloMosaic.ValueIdx

variable {F : FTy → Type} [FloatOps F]

/-- The epilogue as one function of the three kernel outputs (weights `L`, first moments `A`, counts `C`): the per-n
    sum of the rows' entropies divided by the per-n sum of the rows' counts. -/
def tail (L A C : FVec F S160x1 .f32) : FVec F S8 .f32 :=
  let l : FVec F S8x20 .f32 := shapeCast S8x20 L shapeCasts_S160x1_S8x20
  let a : FVec F S8x20 .f32 := shapeCast S8x20 A shapeCasts_S160x1_S8x20
  let cnt : FVec F S8x20 .f32 := shapeCast S8x20 C shapeCasts_S160x1_S8x20
  let zero : FVec F S8x20 .f32 := broadcastInDim S8x20 ![] bcast_S_S8x20 (constant (F := F) S_ .f32 0x00000000#32)
  let one : FVec F S8x20 .f32 := broadcastInDim S8x20 ![] bcast_S_S8x20 (constant (F := F) S_ .f32 0x3F800000#32)
  let ln2 : FVec F S8x20 .f32 := broadcastInDim S8x20 ![] bcast_S_S8x20 (constant (F := F) S_ .f32 0x3F317218#32)
  let ssafe : FVec F S8x20 .f32 := select (cmpf .ogt l zero) l one
  let ent : FVec F S8x20 .f32 := Host.divf (subf (mulf (Host.log ssafe) l) a) (mulf ssafe ln2)
  Host.divf (Host.reduceAdd ent (constant (F := F) S_ .f32 0x00000000#32) reducesTo_S8x20_S8_d1 h_S_)
    (Host.reduceAdd cnt (constant (F := F) S_ .f32 0x00000000#32) reducesTo_S8x20_S8_d1 h_S_)

set_option maxHeartbeats 1000000 in
/-- After the run the program's result buffer holds the epilogue of the region's three output arrays. -/
theorem tail_run (m : (ℓ : Loc nD τ sig) → Buf (Elt F) ℓ) (c : Dev nD) :
    Pipeline.afterTail₀ cfgs (dats m) 0 (V0 m) [hostOps1, hostOps1_1, hostOps1_2] c main_v16
      = tail ((dats m 0 c).arrAt 1 cfg0.N) ((dats m 0 c).arrAt 2 cfg0.N) ((dats m 0 c).arrAt 3 cfg0.N) := by
  unfold Pipeline.afterTail₀
  simp only [hostOps1, hostOps1_1, hostOps1_2, List.flatten_cons, List.flatten_nil, List.append_nil, List.cons_append, List.nil_append]
  after_results_simp
  have e1 := Pipeline.withArrays_arr spec0 launch0.win.arr_inj c (V0 m c) (fun w => (dats m 0 c).arrAt w (cfgs 0).N) 1
  have e2 := Pipeline.withArrays_arr spec0 launch0.win.arr_inj c (V0 m c) (fun w => (dats m 0 c).arrAt w (cfgs 0).N) 2
  have e3 := Pipeline.withArrays_arr spec0 launch0.win.arr_inj c (V0 m c) (fun w => (dats m 0 c).arrAt w (cfgs 0).N) 3
  rw [show Pipeline.withArrays (cfgs 0).spec c (V0 m c) (fun w => (dats m 0 c).arrAt w (cfgs 0).N) (Proc.devRef .tc main_v1_0) = (dats m 0 c).arrAt 1 cfg0.N from e1,
    show Pipeline.withArrays (cfgs 0).spec c (V0 m c) (fun w => (dats m 0 c).arrAt w (cfgs 0).N) (Proc.devRef .tc main_v1_1) = (dats m 0 c).arrAt 2 cfg0.N from e2,
    show Pipeline.withArrays (cfgs 0).spec c (V0 m c) (fun w => (dats m 0 c).arrAt w (cfgs 0).N) (Proc.devRef .tc main_v1_2) = (dats m 0 c).arrAt 3 cfg0.N from e3]
  rfl

/-- Inserting the channel coordinate `k` over the result index `n` of the [8, 20] array gives the index (n, k). -/
theorem lift_eq (h : S8x20.Reduces [1] S8) (n : Fin 8) (k : Fin 20) :
    h.lift (ix1 n) k = ix2 n k := by
  funext d
  match d with
  | ⟨0, _⟩ => exact Fin.ext rfl
  | ⟨1, _⟩ => exact Fin.ext rfl

/-- Entry (n, k) of the [160, 1] array read as [8, 20] is its entry (20 n + k, 0). -/
theorem reshape_apply {α : Type} (X : S160x1.Idx → α) (n : Fin 8) (k : Fin 20) :
    shapeCast S8x20 X shapeCasts_S160x1_S8x20 (ix2 n k)
      = X (ix2 ⟨20 * n.val + k.val, by have := n.isLt; have := k.isLt; omega⟩ (0 : Fin 1)) :=
  shapeCast_apply X _ _ _ (by
    rw [Shape.rowMajor_val_two, Shape.rowMajor_val_two]
    show (20 * n.val + k.val) * 1 + 0 = n.val * 20 + k.val
    omega)

/-- A scalar spread over the [8, 20] array reads the scalar at every entry. -/
theorem bcast_apply {α : Type} (x : S_.Idx → α) (j : S8x20.Idx) :
    broadcastInDim S8x20 ![] bcast_S_S8x20 x j = x ix0 := broadcastInDim_scalar_apply _ x j

/-- The host logarithm at an index is the extended reals' logarithm of the entry. -/
theorem hostLog_apply {s : Shape} {φ : FTy} (x : FVec Ideal s φ) (i : s.Idx) : Host.log x i = Ideal.log (x i) := rfl

/-- Selecting the weight where it is positive and one elsewhere is the guarded weight. -/
theorem ssafe_eq (l : EReal) :
    Scalar.select (Ideal.cmp .ogt l 0) l ONE = if 0 < l then l else ONE := by
  show Scalar.select (BitVec.ofBool (decide (0 < l))) l ONE = _
  by_cases h : 0 < l
  · rw [if_pos h, decide_eq_true h]; exact select_one _ _
  · rw [if_neg h, decide_eq_false h]; exact select_zero _ _

/-- THE EPILOGUE READ AT `n`: the sum over the 20 channels of the rows' entropies, divided by the sum of their counts. -/
theorem tail_apply (L A C : FVec Ideal S160x1 .f32) (n : Fin 8) :
    tail (F := Ideal) L A C (ix1 n)
      = Ideal.div (0 + ∑ c : Fin 20, kernelEnt (L (ix2 ⟨20 * n.val + c.val, by have := n.isLt; have := c.isLt; omega⟩ (0 : Fin 1))) (A (ix2 ⟨20 * n.val + c.val, by have := n.isLt; have := c.isLt; omega⟩ (0 : Fin 1))))
                  (0 + ∑ c : Fin 20, C (ix2 ⟨20 * n.val + c.val, by have := n.isLt; have := c.isLt; omega⟩ (0 : Fin 1))) := by
  have hR : S8x20.Reduces [1] S8 := by decide
  unfold tail
  simp only [hostDivf_apply, hostReduceAdd_apply]
  rw [Ideal.hostReduceAdd_single _ hR, Ideal.hostReduceAdd_single _ hR]
  simp only [constant_apply, Ideal.ofBits_zero_f32]
  refine congrArg₂ Ideal.div (congrArg (0 + ·) (Finset.sum_congr rfl fun (k : Fin 20) _ => ?_)) (congrArg (0 + ·) (Finset.sum_congr rfl fun (k : Fin 20) _ => ?_))
  · rw [lift_eq]
    simp only [hostDivf_apply, subf_apply, mulf_apply, hostLog_apply, select_apply, cmpf_apply, bcast_apply, constant_apply, reshape_apply, Ideal.ofBits_zero_f32]
    rw [bcast_apply, bcast_apply, bcast_apply]
    simp only [constant_apply, Ideal.ofBits_zero_f32]
    exact congrArg₂ Ideal.div (congrArg₂ (· - ·) (congrArg₂ (· * ·) (congrArg Ideal.log (ssafe_eq _)) rfl) rfl) (congrArg₂ (· * ·) (ssafe_eq _) rfl)
  · rw [lift_eq]
    exact reshape_apply C n k

end Cert.KernelIdeal.Tail

end
-- ==== Proof.RefRunBy.lean ====
import proofs.«177906_j35948876267666_1_alg».proof.Proof.RefRead
import Idealize.ShloMosaic.Lib.StableHlo.Run

/-!
# The run of the reference program

The reference is a straight line of 61 host operations and no kernel. Every weakly fair execution of it
terminates; at the end the result buffer of each device holds the entropy stage `val_main_v36` of the
contents its argument buffer had at the start, and the argument buffer is unchanged.

The straight line's final contents are the fold of the operations' results over the starting contents.
Reading that fold at the result buffer composes the operations' functions along the data flow, and the
composition is the chain of stages `val_main_v0 … val_main_v36`, one per operation.

Five groups of the operations are inlined selections (a masking constant broadcast, then an elementwise
choice). Their operations are spelt over references that carry the tensor type of the value they hold, the
function being moved to the buffer's own type along the proof that the two types agree. At a literal
reference that proof is a reflexivity, the transport is the identity, and the typed operation IS the plain
operation over the same references: the first step below says so for each of the fourteen, so that the
fold is read over plain operations only.
-/

noncomputable section

namespace Cert.ReferenceIdeal.RunBy

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

section Typed

variable {sig : RefSig} {τ : Topo} {Val : EltTy → Type}

/-- A typed one-operand operation at references whose carried types are the buffers' own types is the plain
    operation: both transports are along a reflexivity. -/
theorem tunary_eq (x y : Ref sig .tc) (hx1 : x.space ≠ .host) (hx2 : x.isScoped = false)
    (hy1 : y.space ≠ .host) (hy2 : y.isScoped = false) (f : x.ty.Contents Val → y.ty.Contents Val) :
    TRef.unary (τ := τ) (TRef.of (T := x.ty) x rfl hx1 hx2) (TRef.of (T := y.ty) y rfl hy1 hy2) f
      = unary x y f ⟨hx1, hx2⟩ ⟨hy1, hy2⟩ := rfl

/-- The same for a three-operand operation (the elementwise choice). -/
theorem tternary_eq (c a b y : Ref sig .tc) (hc1 : c.space ≠ .host) (hc2 : c.isScoped = false)
    (ha1 : a.space ≠ .host) (ha2 : a.isScoped = false) (hb1 : b.space ≠ .host) (hb2 : b.isScoped = false)
    (hy1 : y.space ≠ .host) (hy2 : y.isScoped = false)
    (f : c.ty.Contents Val → a.ty.Contents Val → b.ty.Contents Val → y.ty.Contents Val) :
    TRef.ternary (τ := τ) (TRef.of (T := c.ty) c rfl hc1 hc2) (TRef.of (T := a.ty) a rfl ha1 ha2)
        (TRef.of (T := b.ty) b rfl hb1 hb2) (TRef.of (T := y.ty) y rfl hy1 hy2) f
      = ternary c a b y f ⟨hc1, hc2⟩ ⟨ha1, ha2⟩ ⟨hb1, hb2⟩ ⟨hy1, hy2⟩ := rfl

end Typed

/-! ## The fourteen typed operations of the program, as plain ones

First selection (the row maximum's operand: the positive entries, the others at -1e30). -/

theorem e05 : (TRef.unary (τ := τ) (Val := Elt F) (TRef.of (T := ⟨S_, .f32⟩) main_cst_0) (TRef.of (T := ⟨S8x20x262144, .f32⟩) main_call0_v0) (broadcastInDim S8x20x262144 ![] bcast_S_S8x20x262144))
    = unary main_cst_0 main_call0_v0 (broadcastInDim S8x20x262144 ![] bcast_S_S8x20x262144 : (⟨S_, .f32⟩ : BufTy).Contents (Elt F) → (⟨S8x20x262144, .f32⟩ : BufTy).Contents (Elt F)) :=
  tunary_eq main_cst_0 main_call0_v0 (by decide) rfl (by decide) rfl _

theorem e06 : (TRef.ternary (τ := τ) (Val := Elt F) (TRef.of (T := ⟨S8x20x262144, .i1⟩) main_v2) (TRef.of (T := ⟨S8x20x262144, .f32⟩) main_v0) (TRef.of (T := ⟨S8x20x262144, .f32⟩) main_call0_v0) (TRef.of (T := ⟨S8x20x262144, .f32⟩) main_v3) select)
    = ternary main_v2 main_v0 main_call0_v0 main_v3 (select : (⟨S8x20x262144, .i1⟩ : BufTy).Contents (Elt F) → (⟨S8x20x262144, .f32⟩ : BufTy).Contents (Elt F) → (⟨S8x20x262144, .f32⟩ : BufTy).Contents (Elt F) → (⟨S8x20x262144, .f32⟩ : BufTy).Contents (Elt F)) :=
  tternary_eq main_v2 main_v0 main_call0_v0 main_v3 (by decide) rfl (by decide) rfl (by decide) rfl (by decide) rfl _

/-! Second selection (the row maximum, set to zero on a row with no positive entry). -/

theorem e16 : (TRef.unary (τ := τ) (Val := Elt F) (TRef.of (T := ⟨S_, .f32⟩) main_cst_4) (TRef.of (T := ⟨S_, .f32⟩) main_call1_v0) (id))
    = unary main_cst_4 main_call1_v0 (id : (⟨S_, .f32⟩ : BufTy).Contents (Elt F) → (⟨S_, .f32⟩ : BufTy).Contents (Elt F)) :=
  tunary_eq main_cst_4 main_call1_v0 (by decide) rfl (by decide) rfl _

theorem e17 : (TRef.unary (τ := τ) (Val := Elt F) (TRef.of (T := ⟨S_, .f32⟩) main_call1_v0) (TRef.of (T := ⟨S8x20x1, .f32⟩) main_call1_v1) (broadcastInDim S8x20x1 ![] bcast_S_S8x20x1))
    = unary main_call1_v0 main_call1_v1 (broadcastInDim S8x20x1 ![] bcast_S_S8x20x1 : (⟨S_, .f32⟩ : BufTy).Contents (Elt F) → (⟨S8x20x1, .f32⟩ : BufTy).Contents (Elt F)) :=
  tunary_eq main_call1_v0 main_call1_v1 (by decide) rfl (by decide) rfl _

theorem e18 : (TRef.ternary (τ := τ) (Val := Elt F) (TRef.of (T := ⟨S8x20x1, .i1⟩) main_v8) (TRef.of (T := ⟨S8x20x1, .f32⟩) main_call1_v1) (TRef.of (T := ⟨S8x20x1, .f32⟩) main_v5) (TRef.of (T := ⟨S8x20x1, .f32⟩) main_v9) select)
    = ternary main_v8 main_call1_v1 main_v5 main_v9 (select : (⟨S8x20x1, .i1⟩ : BufTy).Contents (Elt F) → (⟨S8x20x1, .f32⟩ : BufTy).Contents (Elt F) → (⟨S8x20x1, .f32⟩ : BufTy).Contents (Elt F) → (⟨S8x20x1, .f32⟩ : BufTy).Contents (Elt F)) :=
  tternary_eq main_v8 main_call1_v1 main_v5 main_v9 (by decide) rfl (by decide) rfl (by decide) rfl (by decide) rfl _

/-! Third selection (the weights: the exponential on the positive entries, zero elsewhere). -/

theorem e23 : (TRef.unary (τ := τ) (Val := Elt F) (TRef.of (T := ⟨S_, .f32⟩) main_cst_5) (TRef.of (T := ⟨S_, .f32⟩) main_call2_v0) (id))
    = unary main_cst_5 main_call2_v0 (id : (⟨S_, .f32⟩ : BufTy).Contents (Elt F) → (⟨S_, .f32⟩ : BufTy).Contents (Elt F)) :=
  tunary_eq main_cst_5 main_call2_v0 (by decide) rfl (by decide) rfl _

theorem e24 : (TRef.unary (τ := τ) (Val := Elt F) (TRef.of (T := ⟨S_, .f32⟩) main_call2_v0) (TRef.of (T := ⟨S8x20x262144, .f32⟩) main_call2_v1) (broadcastInDim S8x20x262144 ![] bcast_S_S8x20x262144))
    = unary main_call2_v0 main_call2_v1 (broadcastInDim S8x20x262144 ![] bcast_S_S8x20x262144 : (⟨S_, .f32⟩ : BufTy).Contents (Elt F) → (⟨S8x20x262144, .f32⟩ : BufTy).Contents (Elt F)) :=
  tunary_eq main_call2_v0 main_call2_v1 (by decide) rfl (by decide) rfl _

theorem e25 : (TRef.ternary (τ := τ) (Val := Elt F) (TRef.of (T := ⟨S8x20x262144, .i1⟩) main_v2) (TRef.of (T := ⟨S8x20x262144, .f32⟩) main_v12) (TRef.of (T := ⟨S8x20x262144, .f32⟩) main_call2_v1) (TRef.of (T := ⟨S8x20x262144, .f32⟩) main_v13) select)
    = ternary main_v2 main_v12 main_call2_v1 main_v13 (select : (⟨S8x20x262144, .i1⟩ : BufTy).Contents (Elt F) → (⟨S8x20x262144, .f32⟩ : BufTy).Contents (Elt F) → (⟨S8x20x262144, .f32⟩ : BufTy).Contents (Elt F) → (⟨S8x20x262144, .f32⟩ : BufTy).Contents (Elt F)) :=
  tternary_eq main_v2 main_v12 main_call2_v1 main_v13 (by decide) rfl (by decide) rfl (by decide) rfl (by decide) rfl _

/-! Fourth selection (the row's total weight, set to one where it is not positive). -/

theorem e33 : (TRef.unary (τ := τ) (Val := Elt F) (TRef.of (T := ⟨S_, .f32⟩) main_cst_8) (TRef.of (T := ⟨S_, .f32⟩) main_call3_v0) (id))
    = unary main_cst_8 main_call3_v0 (id : (⟨S_, .f32⟩ : BufTy).Contents (Elt F) → (⟨S_, .f32⟩ : BufTy).Contents (Elt F)) :=
  tunary_eq main_cst_8 main_call3_v0 (by decide) rfl (by decide) rfl _

theorem e34 : (TRef.unary (τ := τ) (Val := Elt F) (TRef.of (T := ⟨S_, .f32⟩) main_call3_v0) (TRef.of (T := ⟨S8x20x1, .f32⟩) main_call3_v1) (broadcastInDim S8x20x1 ![] bcast_S_S8x20x1))
    = unary main_call3_v0 main_call3_v1 (broadcastInDim S8x20x1 ![] bcast_S_S8x20x1 : (⟨S_, .f32⟩ : BufTy).Contents (Elt F) → (⟨S8x20x1, .f32⟩ : BufTy).Contents (Elt F)) :=
  tunary_eq main_call3_v0 main_call3_v1 (by decide) rfl (by decide) rfl _

theorem e35 : (TRef.ternary (τ := τ) (Val := Elt F) (TRef.of (T := ⟨S8x20x1, .i1⟩) main_v17) (TRef.of (T := ⟨S8x20x1, .f32⟩) main_v15) (TRef.of (T := ⟨S8x20x1, .f32⟩) main_call3_v1) (TRef.of (T := ⟨S8x20x1, .f32⟩) main_v18) select)
    = ternary main_v17 main_v15 main_call3_v1 main_v18 (select : (⟨S8x20x1, .i1⟩ : BufTy).Contents (Elt F) → (⟨S8x20x1, .f32⟩ : BufTy).Contents (Elt F) → (⟨S8x20x1, .f32⟩ : BufTy).Contents (Elt F) → (⟨S8x20x1, .f32⟩ : BufTy).Contents (Elt F)) :=
  tternary_eq main_v17 main_v15 main_call3_v1 main_v18 (by decide) rfl (by decide) rfl (by decide) rfl (by decide) rfl _

/-! Fifth selection (the entropy's summands: probability times log-probability on the positive entries, zero
elsewhere). -/

theorem e45 : (TRef.unary (τ := τ) (Val := Elt F) (TRef.of (T := ⟨S_, .f32⟩) main_cst_9) (TRef.of (T := ⟨S_, .f32⟩) main_call4_v0) (id))
    = unary main_cst_9 main_call4_v0 (id : (⟨S_, .f32⟩ : BufTy).Contents (Elt F) → (⟨S_, .f32⟩ : BufTy).Contents (Elt F)) :=
  tunary_eq main_cst_9 main_call4_v0 (by decide) rfl (by decide) rfl _

theorem e46 : (TRef.unary (τ := τ) (Val := Elt F) (TRef.of (T := ⟨S_, .f32⟩) main_call4_v0) (TRef.of (T := ⟨S8x20x262144, .f32⟩) main_call4_v1) (broadcastInDim S8x20x262144 ![] bcast_S_S8x20x262144))
    = unary main_call4_v0 main_call4_v1 (broadcastInDim S8x20x262144 ![] bcast_S_S8x20x262144 : (⟨S_, .f32⟩ : BufTy).Contents (Elt F) → (⟨S8x20x262144, .f32⟩ : BufTy).Contents (Elt F)) :=
  tunary_eq main_call4_v0 main_call4_v1 (by decide) rfl (by decide) rfl _

theorem e47 : (TRef.ternary (τ := τ) (Val := Elt F) (TRef.of (T := ⟨S8x20x262144, .i1⟩) main_v2) (TRef.of (T := ⟨S8x20x262144, .f32⟩) main_v26) (TRef.of (T := ⟨S8x20x262144, .f32⟩) main_call4_v1) (TRef.of (T := ⟨S8x20x262144, .f32⟩) main_v27) select)
    = ternary main_v2 main_v26 main_call4_v1 main_v27 (select : (⟨S8x20x262144, .i1⟩ : BufTy).Contents (Elt F) → (⟨S8x20x262144, .f32⟩ : BufTy).Contents (Elt F) → (⟨S8x20x262144, .f32⟩ : BufTy).Contents (Elt F) → (⟨S8x20x262144, .f32⟩ : BufTy).Contents (Elt F)) :=
  tternary_eq main_v2 main_v26 main_call4_v1 main_v27 (by decide) rfl (by decide) rfl (by decide) rfl (by decide) rfl _

/-! ## The fold read at the two buffers of the statement -/

set_option maxRecDepth 8192 in
set_option maxHeartbeats 24400000 in
/-- After the 61 operations the result buffer holds the last stage of the argument's starting contents: with the
    typed operations replaced by the plain ones, each operation's result is its function of the contents of its
    operand buffers, an operation leaves every buffer it does not write as it was, and the composed term is
    the chain of stages. -/
theorem after_v36 (m : (ℓ : Loc nD τ sig) → Buf (Elt F) ℓ) (c : Dev nD) :
    after (ops (F := F)) (launchContents m c) (Proc.devRef .tc main_v36)
      = Cert.ReferenceIdeal.Read.val_main_v36 (F := F) (m ((c.tc : Thread nD τ).loc main_arg0)) := by
  unfold ops
  rw [e05, e06, e16, e17, e18, e23, e24, e25, e33, e34, e35, e45, e46, e47]
  after_results_simp
  exact Cert.ReferenceIdeal.Read.val_main_v36_eq m c

set_option maxRecDepth 8192 in
set_option maxHeartbeats 24400000 in
/-- No operation writes the argument buffer: after the 61 operations it holds what it held. -/
theorem after_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

/-- The run of the reference: every weakly fair execution terminates, each device's result buffer at the last
    stage of its argument's starting contents, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = Cert.ReferenceIdeal.Read.val_main_v36 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v36).trans (after_v36 m c), (h c main_arg0).trans (after_arg0 m c)⟩)
    (run_seq scopedRefs_eq scopedSems_eq defs main (fun _ => ops) main_eq (fun _ => ops_sub) m ρ)

end Cert.ReferenceIdeal.RunBy

end
-- ==== Proof.RefEnt.lean ====
/-
  The reference's result read at an index.

  For one image n the reference's last value is a quotient: the sum over the 20 channels c of the
  entropy of row (n, c), over the count of positive entries. This module reads the numerator's
  summand at (n, c) as the closed form refEnt of the row: the row's guarded maximum m', the weight
  s = ∑ exp (x - m') over the positive entries, the guarded weight ss, the softmax p = e / ss, and
  -∑ p · (x - m' - log ss) over the positive entries, in bits. Two facts about the earlier values are
  taken as hypotheses: the reshaped input at (n, c, j) is the row's j-th entry, and the maximum-reduce
  at (n, c) is the row's maximum over its positive entries.
-/
import proofs.«177906_j35948876267666_1_alg».proof.Proof.RefRead
import proofs.«177906_j35948876267666_1_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read Cert.Ent Idealize.ShloMosaic Idealize.ShloMosaic.ValueIdx

/-! ## Small facts about words and indices -/

/-- A select on a decided comparison bit is the if on the compared proposition. -/
theorem refent_select_decide {α : Type} (p : Prop) [Decidable p] (a b : α) :
    Scalar.select (BitVec.ofBool (decide p)) a b = if p then a else b := by
  by_cases h : p <;> simp [Scalar.select, h]

/-- The row index (n, c) under the unit axis of (n, c, z). -/
theorem refent_idx_drop (n : Fin 8) (c : Fin 20) (z : Fin 1) : idx_main_v5 (ix3 n c z) = ix2 n c :=
  funext fun a => Fin.ext (by match a with | ⟨0, _⟩ => rfl | ⟨1, _⟩ => rfl)

/-- The same for the weight's unit axis. -/
theorem refent_idx_drop' (n : Fin 8) (c : Fin 20) (z : Fin 1) : idx_main_v15 (ix3 n c z) = ix2 n c :=
  refent_idx_drop n c z

/-- A lane (n, c, j) reads a per-row value at (n, c, 0). -/
theorem refent_idx_lane (n : Fin 8) (c : Fin 20) (j : Fin 262144) : idx_main_v10 (ix3 n c j) = ix3 n c (0 : Fin 1) :=
  funext fun a => Fin.ext (by match a with | ⟨0, _⟩ => rfl | ⟨1, _⟩ => rfl | ⟨2, _⟩ => rfl)

/-- The same for the three other per-row values a lane reads: the guarded maximum again, the logarithm of the guarded
    weight, and the guarded weight. -/
theorem refent_idx_lane19 (n : Fin 8) (c : Fin 20) (j : Fin 262144) : idx_main_v19 (ix3 n c j) = ix3 n c (0 : Fin 1) :=
  refent_idx_lane n c j
theorem refent_idx_lane22 (n : Fin 8) (c : Fin 20) (j : Fin 262144) : idx_main_v22 (ix3 n c j) = ix3 n c (0 : Fin 1) :=
  refent_idx_lane n c j
theorem refent_idx_lane24 (n : Fin 8) (c : Fin 20) (j : Fin 262144) : idx_main_v24 (ix3 n c j) = ix3 n c (0 : Fin 1) :=
  refent_idx_lane n c j

/-- The k-th summand of the lane sum at (n, c) sits at (n, c, k). -/
theorem refent_idx_sum (n : Fin 8) (c : Fin 20) (k : Fin 262144) : idx_main_v14 (ix2 n c) k = ix3 n c k :=
  funext fun a => Fin.ext (by match a with | ⟨0, _⟩ => rfl | ⟨1, _⟩ => rfl | ⟨2, _⟩ => rfl)

/-- The same for the entropy sum. -/
theorem refent_idx_sum28 (n : Fin 8) (c : Fin 20) (k : Fin 262144) : idx_main_v28 (ix2 n c) k = ix3 n c k :=
  refent_idx_sum n c k

/-- The k-th summand of the channel sum at n sits at (n, k). -/
theorem refent_idx_chan (n : Fin 8) (k : Fin 20) : idx_main_v35 (ix1 n) k = ix2 n k :=
  funext fun a => Fin.ext (by match a with | ⟨0, _⟩ => rfl | ⟨1, _⟩ => rfl)

/-! ## The row's scalars -/

section Row
variable {κ : Type} [Fintype κ]

/-- The maximum guarded against the empty row. -/
def refent_m (x : κ → EReal) : EReal := if rowM x ≤ NEG * HALF then 0 else rowM x
/-- The weight against the guarded maximum. -/
def refent_s (x : κ → EReal) : EReal := 0 + ∑ j, wexp (refent_m x) (x j)
/-- The weight guarded against zero. -/
def refent_ss (x : κ → EReal) : EReal := if 0 < refent_s x then refent_s x else ONE
/-- One entry's share of the entropy sum. -/
def refent_term (x : κ → EReal) (j : κ) : EReal :=
  if 0 < x j then Ideal.div (wexp (refent_m x) (x j)) (refent_ss x) * ((x j - refent_m x) - Ideal.log (refent_ss x)) else 0

/-- The reference entropy written with those names. -/
theorem refent_refEnt (x : κ → EReal) :
    refEnt x = Ideal.div (-(0 + ∑ j, refent_term x j)) LN2 := rfl

end Row

variable (x0 : (⟨S8x20x512x512, .f32⟩ : BufTy).Contents (Elt Ideal)) (n : Fin 8) (c : Fin 20)

/-- The guarded maximum of row (n, c), on the unit axis. -/
theorem refent_v9 (z : Fin 1)
    (hmax : val_main_v4 (F := Ideal) x0 (ix2 n c) = rowM (rowOf x0 n c)) :
    val_main_v9 (F := Ideal) x0 (ix3 n c z) = refent_m (rowOf x0 n c) := by
  rw [val_main_v9_apply, val_main_v8_apply, val_main_v5_apply, val_main_v7_apply, val_main_v6_apply,
    val_main_cst_2_apply, val_main_cst_3_apply, val_main_call1_v1_apply, val_main_call1_v0_apply,
    val_main_cst_4_apply]
  simp only [refent_idx_drop, hmax, Ideal.cmpf_def, Ideal.mulf_def, Ideal.ofBits_def, Ideal.ofBits_zero_f32,
    Ideal.cmp, refent_select_decide]
  rfl

/-- The weight of entry j of row (n, c) against the guarded maximum. -/
theorem refent_v13 (j : Fin 262144)
    (hv0 : ∀ j : Fin 262144, val_main_v0 (F := Ideal) x0 (ix3 n c j) = rowOf x0 n c j)
    (hmax : val_main_v4 (F := Ideal) x0 (ix2 n c) = rowM (rowOf x0 n c)) :
    val_main_v13 (F := Ideal) x0 (ix3 n c j) = wexp (refent_m (rowOf x0 n c)) (rowOf x0 n c j) := by
  rw [val_main_v13_apply, val_main_v2_apply, val_main_v12_apply, val_main_v11_apply, val_main_v10_apply,
    val_main_v1_apply, val_main_cst_apply, val_main_call2_v1_apply, val_main_call2_v0_apply,
    val_main_cst_5_apply]
  simp only [refent_idx_lane, hv0, refent_v9 x0 n c 0 hmax, Ideal.cmpf_def, Ideal.subf_def,
    Ideal.hostUnary_exp_def, Ideal.ofBits_def, Ideal.ofBits_zero_f32, Ideal.cmp, refent_select_decide]
  rfl

/-- The weight of row (n, c). -/
theorem refent_v14
    (hv0 : ∀ j : Fin 262144, val_main_v0 (F := Ideal) x0 (ix3 n c j) = rowOf x0 n c j)
    (hmax : val_main_v4 (F := Ideal) x0 (ix2 n c) = rowM (rowOf x0 n c)) :
    val_main_v14 (F := Ideal) x0 (ix2 n c) = refent_s (rowOf x0 n c) := by
  rw [val_main_v14_apply, val_main_cst_6_apply, Ideal.ofBits_def, Ideal.ofBits_zero_f32]
  refine congrArg (0 + ·) (Finset.sum_congr rfl fun k _ => ?_)
  rw [refent_idx_sum]
  exact refent_v13 x0 n c k hv0 hmax

/-- The guarded weight of row (n, c), on the unit axis. -/
theorem refent_v18 (z : Fin 1)
    (hv0 : ∀ j : Fin 262144, val_main_v0 (F := Ideal) x0 (ix3 n c j) = rowOf x0 n c j)
    (hmax : val_main_v4 (F := Ideal) x0 (ix2 n c) = rowM (rowOf x0 n c)) :
    val_main_v18 (F := Ideal) x0 (ix3 n c z) = refent_ss (rowOf x0 n c) := by
  rw [val_main_v18_apply, val_main_v17_apply, val_main_v15_apply, val_main_v16_apply, val_main_cst_7_apply,
    val_main_call3_v1_apply, val_main_call3_v0_apply, val_main_cst_8_apply]
  simp only [refent_idx_drop', refent_v14 x0 n c hv0 hmax, Ideal.cmpf_def, Ideal.ofBits_def,
    Ideal.ofBits_zero_f32, Ideal.cmp, refent_select_decide]
  rfl

/-- Entry j's share of the entropy sum of row (n, c). -/
theorem refent_v27 (j : Fin 262144)
    (hv0 : ∀ j : Fin 262144, val_main_v0 (F := Ideal) x0 (ix3 n c j) = rowOf x0 n c j)
    (hmax : val_main_v4 (F := Ideal) x0 (ix2 n c) = rowM (rowOf x0 n c)) :
    val_main_v27 (F := Ideal) x0 (ix3 n c j) = refent_term (rowOf x0 n c) j := by
  rw [val_main_v27_apply, val_main_v2_apply, val_main_v26_apply, val_main_v25_apply, val_main_v23_apply,
    val_main_v20_apply, val_main_v19_apply, val_main_v22_apply, val_main_v21_apply, val_main_v24_apply,
    val_main_v1_apply, val_main_cst_apply, val_main_call4_v1_apply, val_main_call4_v0_apply,
    val_main_cst_9_apply]
  simp only [refent_idx_lane19, refent_idx_lane22, refent_idx_lane24, hv0, refent_v9 x0 n c 0 hmax, refent_v13 x0 n c j hv0 hmax,
    refent_v18 x0 n c 0 hv0 hmax, Ideal.cmpf_def, Ideal.subf_def, Ideal.mulf_def, Ideal.hostDivf_def,
    Ideal.hostUnary_log_def, Ideal.ofBits_def, Ideal.ofBits_zero_f32, Ideal.cmp, refent_select_decide]
  rfl

/-- The entropy of row (n, c) in bits. -/
theorem refent_v31
    (hv0 : ∀ j : Fin 262144, val_main_v0 (F := Ideal) x0 (ix3 n c j) = rowOf x0 n c j)
    (hmax : val_main_v4 (F := Ideal) x0 (ix2 n c) = rowM (rowOf x0 n c)) :
    val_main_v31 (F := Ideal) x0 (ix2 n c) = refEnt (rowOf x0 n c) := by
  rw [val_main_v31_apply, val_main_v29_apply, val_main_v30_apply, val_main_cst_11_apply, val_main_v28_apply,
    val_main_cst_10_apply, refent_refEnt]
  simp only [Ideal.hostDivf_def, Ideal.hostNegf_def, Ideal.negf_def, Ideal.ofBits_def, Ideal.ofBits_zero_f32]
  refine congrArg (fun t => Ideal.div (-(0 + t)) LN2) (Finset.sum_congr rfl fun k _ => ?_)
  rw [refent_idx_sum28]
  exact refent_v27 x0 n c k hv0 hmax

/-- THE REFERENCE'S RESULT AT n: the sum over the channels of the rows' entropies, over the count. -/
theorem ref_result (x0 : (⟨S8x20x512x512, .f32⟩ : BufTy).Contents (Elt Ideal)) (n : Fin 8)
    (hv0 : ∀ (c : Fin 20) (j : Fin 262144), val_main_v0 (F := Ideal) x0 (ix3 n c j) = rowOf x0 n c j)
    (hmax : ∀ c : Fin 20, val_main_v4 (F := Ideal) x0 (ix2 n c) = rowM (rowOf x0 n c)) :
    val_main_v36 (F := Ideal) x0 (ix1 n)
      = Ideal.div (0 + ∑ c : Fin 20, refEnt (rowOf x0 n c)) (val_main_v34 (F := Ideal) x0 (ix1 n)) := by
  rw [val_main_v36_apply, val_main_v35_apply, val_main_cst_12_apply, Ideal.hostDivf_def, Ideal.ofBits_def,
    Ideal.ofBits_zero_f32]
  refine congrArg (fun t => Ideal.div (0 + t) (val_main_v34 (F := Ideal) x0 (ix1 n)))
    (Finset.sum_congr rfl fun k _ => ?_)
  rw [refent_idx_chan]
  exact refent_v31 x0 n k (hv0 k) (hmax k)

end Cert.ReferenceIdeal.RefValue

end
-- ==== Proof.RefMax.lean ====
/-
  The reference's row maximum.

  The reference first replaces every entry of the [8, 20, 262144] view of the heatmap that is not
  positive by the finite stand-in NEG, then takes, for each row (n, c), the maximum over the 262144
  entries of that row, starting from -∞. Since -∞ is the least extended real, that maximum is the
  supremum over the row of "the entry when positive, else NEG": the row maximum `rowM` of the row.
-/
import proofs.«177906_j35948876267666_1_alg».proof.Proof.RefRead
import proofs.«177906_j35948876267666_1_alg».proof.Proof.Spec
import Idealize.ShloMosaic.Lib.ValueIdx
import Idealize.ShloMosaic.Lib.Pipeline.Value
import Idealize.ShloMosaic.PureOps.Reduce
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read Cert.Ent Idealize.ShloMosaic Idealize.ShloMosaic.ValueIdx

/-- The masked entry: at every index the select keeps the entry when it is positive and puts NEG
    there otherwise, which is `mval` of the entry. -/
theorem refmax_v3 (x0 : (⟨S8x20x512x512, .f32⟩ : BufTy).Contents (Elt Ideal)) (i : S8x20x262144.Idx) :
    val_main_v3 (F := Ideal) x0 i = mval (val_main_v0 (F := Ideal) x0 i) := by
  rw [val_main_v3_apply, val_main_v2_apply, val_main_v1_apply, val_main_cst_apply,
    val_main_call0_v0_apply, val_main_cst_0_apply]
  generalize val_main_v0 (F := Ideal) x0 i = v
  show Scalar.select (BitVec.ofBool (decide (Ideal.ofBits .f32 0x00000000#32 < v))) v NEG = mval v
  rw [Ideal.ofBits_zero_f32]
  unfold mval
  by_cases h : 0 < v
  · rw [if_pos h, decide_eq_true h]; exact select_one _ _
  · rw [if_neg h, decide_eq_false h]; exact select_zero _ _

/-- The row index (n, c) with the coordinate k put back on the reduced axis is (n, c, k). -/
theorem refmax_lift (h : S8x20x262144.Reduces [2] S8x20) (n : Fin 8) (c : Fin 20)
    (k : Fin (S8x20x262144.size 2)) :
    h.lift (ix2 n c) k = ix3 n c (⟨k.val, k.isLt⟩ : Fin 262144) := by
  funext a; apply Fin.ext
  fin_cases a <;> rfl

/-- The maximum from -∞ over the entries of row (n, c) of the masked view is the row maximum. -/
theorem ref_max (x0 : (⟨S8x20x512x512, .f32⟩ : BufTy).Contents (Elt Ideal)) (n : Fin 8) (c : Fin 20)
    (hv0 : ∀ j : Fin 262144, val_main_v0 (F := Ideal) x0 (ix3 n c j) = rowOf x0 n c j) :
    val_main_v4 (F := Ideal) x0 (ix2 n c) = rowM (rowOf x0 n c) := by
  have h : S8x20x262144.Reduces [2] S8x20 := by decide
  unfold val_main_v4
  rw [Host.reduce_eq_fold_single FloatOps.maximumf _ _ reducesTo_S8x20x262144_S8x20_d2 h h_S_]
  -- the initial value is -∞
  have hb : val_main_cst_1 (F := Ideal) (Shape.Idx.first h_S_) = (⊥ : EReal) := by
    rw [val_main_cst_1_apply]
    show Ideal.ofBits .f32 0xFF800000#32 = ⊥
    simp [Ideal.ofBits, Ideal.ieee]
  rw [hb]
  -- the entry at coordinate k of the row is mval of the row's k-th entry
  have hf : (val_main_v3 (F := Ideal) x0 ∘ h.lift (ix2 n c))
      = fun k : Fin 262144 => mval (rowOf x0 n c k) := by
    funext k
    show val_main_v3 (F := Ideal) x0 (h.lift (ix2 n c) k) = _
    rw [refmax_lift h n c k, refmax_v3, hv0]
    rfl
  unfold rowM
  exact congrArg (fun f => Finset.fold (fun a b : EReal => max a b) (⊥ : EReal) f (Finset.univ : Finset (Fin 262144))) hf

end Cert.ReferenceIdeal.RefValue

end
-- ==== Proof.RefCount.lean ====
/-
  The reference's count of positive entries. The [8, 20, 512, 512] array viewed as
  [8, 20, 262144] reads, at (n, c, j), entry j of row (n, c). The mask of its positive entries,
  widened to 32-bit words and summed over the last two axes, is for each n the number of positive
  entries in the twenty rows (n, ·): at most 20 · 262144 < 2³¹, so the word sum never wraps, its
  signed reading is that number, and as an extended real it is the sum over c of each row's count.
-/
import proofs.«177906_j35948876267666_1_alg».proof.Proof.RefRead
import proofs.«177906_j35948876267666_1_alg».proof.Proof.Spec
import Idealize.ShloMosaic.Lib.ValueIdx
import Idealize.ShloMosaic.Lib.Pipeline.Value
import Idealize.ShloMosaic.PureOps.Ideal.Laws
import Idealize.ShloMosaic.Lib.IdealHost
import Idealize.ShloMosaic.Lib.StableHlo.Predicate

noncomputable section

namespace Cert.ReferenceIdeal.RefValue

open Cert.ReferenceIdeal Cert.ReferenceIdeal.Gen Cert.ReferenceIdeal.Read Cert.Ent Idealize.ShloMosaic Idealize.ShloMosaic.ValueIdx

/-- Position (n, c, j) of the [8, 20, 262144] view is position (n, c, j / 512, j % 512) of the array. -/
theorem refcount_idx_v0 (n : Fin 8) (c : Fin 20) (j : Fin 262144) :
    idx_main_v0 (ix3 n c j) = ix4 n c ⟨j.val / 512, by have := j.isLt; omega⟩ ⟨j.val % 512, by omega⟩ := by
  have hn := n.isLt
  have hc := c.isLt
  have hj := j.isLt
  funext a
  apply Fin.ext
  match a with
  | ⟨0, _⟩ => show ((n.val * 20 + c.val) * 262144 + j.val) / 5242880 = n.val; omega
  | ⟨1, _⟩ => show ((n.val * 20 + c.val) * 262144 + j.val) / 262144 % 20 = c.val; omega
  | ⟨2, _⟩ => show ((n.val * 20 + c.val) * 262144 + j.val) / 512 % 512 = j.val / 512; omega
  | ⟨3, _⟩ => show ((n.val * 20 + c.val) * 262144 + j.val) % 512 = j.val % 512; omega

/-- The flattened view at (n, c, j) is entry j of row (n, c). -/
theorem ref_v0 (x0 : (⟨S8x20x512x512, .f32⟩ : BufTy).Contents (Elt Ideal)) (n : Fin 8) (c : Fin 20) (j : Fin 262144) :
    val_main_v0 (F := Ideal) x0 (ix3 n c j) = rowOf x0 n c j := by
  rw [val_main_v0_apply, refcount_idx_v0]
  rfl

/-- The mask at (n, c, j) says whether entry j of row (n, c) is positive. -/
theorem refcount_mask (x0 : (⟨S8x20x512x512, .f32⟩ : BufTy).Contents (Elt Ideal)) (n : Fin 8) (c : Fin 20) (j : Fin 262144) :
    val_main_v2 (F := Ideal) x0 (ix3 n c j) = BitVec.ofBool (decide (0 < rowOf x0 n c j)) := by
  rw [val_main_v2_apply, val_main_v1_apply, val_main_cst_apply, ref_v0]
  show Ideal.cmp .ogt (rowOf x0 n c j) (Ideal.ofBits .f32 0x00000000#32) = _
  rw [Ideal.ofBits_zero_f32]
  rfl

/-- Summing the widened bits of an [8, 20, 262144] mask over its last two axes gives, at n, the number of
    set bits among the positions (n, c, j): 5242880 positions at most, so the word sum does not wrap. -/
theorem refcount_reduce_toNat (mask : IVec S8x20x262144 1) (hw : 1 < 32)
    (h : S8x20x262144.ReducesTo [1, 2] S8) {u : Shape} (hu : 0 < u.numel) (n : Fin 8) :
    (Host.reduce IntOp.addi (extui 32 mask hw) (constantI u 32 0#32) h hu (ix1 n)).toNat
      = ∑ c : Fin 20, ∑ j : Fin 262144, (if mask (ix3 n c j) = 1#1 then 1 else 0) := by
  classical
  rw [Host.reduce_eq_fold]
  have hval : ∀ i, (extui 32 mask hw i).toNat = if mask i = 1#1 then 1 else 0 :=
    fun i => StableHlo.Predicate.toNat_setWidth_bit (mask i)
  -- the positions that reduce into n are those whose first coordinate is n
  have hdrop : ∀ i : S8x20x262144.Idx, h.drop i = ix1 n ↔ i 0 = n := by
    intro i
    have hv : (h.drop i 0 : Nat) = i 0 := Shape.ReducesTo.drop_apply_val_of_eq h i 0 0
    constructor
    · intro e; rw [e] at hv; exact Fin.ext hv.symm
    · intro e; funext b; have hb : b = 0 := Subsingleton.elim _ _; subst hb; exact Fin.ext (by rw [hv, e])
  have hback : ∀ i : S8x20x262144.Idx, i 0 = n → ix3 n (i 1) (i 2) = i := fun i h0 => by
    funext b; match b with
    | ⟨0, _⟩ => exact h0.symm
    | ⟨1, _⟩ => rfl
    | ⟨2, _⟩ => rfl
  have hsum : ∑ i ∈ Finset.univ.filter (fun i : S8x20x262144.Idx => h.drop i = ix1 n), (extui 32 mask hw i).toNat
      = ∑ c : Fin 20, ∑ j : Fin 262144, (if mask (ix3 n c j) = 1#1 then 1 else 0) := by
    rw [← Fintype.sum_prod_type (f := fun p : Fin 20 × Fin 262144 => if mask (ix3 n p.1 p.2) = 1#1 then 1 else 0)]
    refine Finset.sum_bij' (fun i _ => ((i 1 : Fin 20), (i 2 : Fin 262144))) (fun p _ => ix3 n p.1 p.2)
      (fun _ _ => Finset.mem_univ _)
      (fun p _ => Finset.mem_filter.2 ⟨Finset.mem_univ _, (hdrop _).2 rfl⟩)
      (fun i hi => hback i ((hdrop i).1 (Finset.mem_filter.1 hi).2)) (fun _ _ => rfl) ?_
    intro i hi
    rw [hval]
    exact (congrArg (fun x => if mask x = 1#1 then 1 else 0) (hback i ((hdrop i).1 (Finset.mem_filter.1 hi).2))).symm
  have hle : ∑ c : Fin 20, ∑ j : Fin 262144, (if mask (ix3 n c j) = 1#1 then 1 else 0) ≤ 5242880 := by
    calc ∑ c : Fin 20, ∑ j : Fin 262144, (if mask (ix3 n c j) = 1#1 then 1 else 0)
        ≤ ∑ c : Fin 20, ∑ j : Fin 262144, 1 :=
          Finset.sum_le_sum fun c _ => Finset.sum_le_sum fun j _ => by split_ifs <;> omega
      _ = 5242880 := by simp
  show (Finset.fold IntOp.addi 0#32 (extui 32 mask hw) (Finset.univ.filter fun i : S8x20x262144.Idx => h.drop i = ix1 n)).toNat = _
  rw [StableHlo.Predicate.toNat_fold_addi _ _ (by rw [hsum]; omega), hsum]

/-- A natural-number sum as an extended real is the sum of its terms as extended reals. -/
theorem refcount_cast_sum {ι : Type} (s : Finset ι) (f : ι → ℕ) :
    (((∑ i ∈ s, f i : ℕ) : ℝ) : EReal) = ∑ i ∈ s, (((f i : ℕ) : ℝ) : EReal) := by
  classical
  induction s using Finset.induction_on with
  | empty => simp
  | insert a s ha ih => rw [Finset.sum_insert ha, Finset.sum_insert ha, Nat.cast_add, EReal.coe_add, ih]

/-- The reference's count at n is the sum over the twenty rows (n, c) of each row's number of positive entries. -/
theorem ref_count (x0 : (⟨S8x20x512x512, .f32⟩ : BufTy).Contents (Elt Ideal)) (n : Fin 8) :
    val_main_v34 (F := Ideal) x0 (ix1 n) = ∑ c : Fin 20, rowC (rowOf x0 n c) := by
  have hN : (val_main_v33 (F := Ideal) x0 (ix1 n)).toNat
      = ∑ c : Fin 20, ∑ j : Fin 262144, (if 0 < rowOf x0 n c j then 1 else 0) := by
    unfold val_main_v33 val_main_v32 val_main_c
    rw [refcount_reduce_toNat]
    refine Finset.sum_congr rfl fun c _ => Finset.sum_congr rfl fun j _ => ?_
    rw [refcount_mask]
    by_cases hp : 0 < rowOf x0 n c j <;> simp [hp]
  have hlt : (val_main_v33 (F := Ideal) x0 (ix1 n)).toNat < 2 ^ 31 := by
    rw [hN]
    calc ∑ c : Fin 20, ∑ j : Fin 262144, (if 0 < rowOf x0 n c j then 1 else 0)
        ≤ ∑ c : Fin 20, ∑ j : Fin 262144, 1 :=
          Finset.sum_le_sum fun c _ => Finset.sum_le_sum fun j _ => by split_ifs <;> omega
      _ < 2 ^ 31 := by simp
  rw [val_main_v34_apply]
  show (((val_main_v33 (F := Ideal) x0 (ix1 n)).toInt : ℝ) : EReal) = _
  rw [StableHlo.Predicate.toInt_eq_toNat_of_lt hlt, Int.cast_natCast, hN, refcount_cast_sum]
  refine Finset.sum_congr rfl fun c _ => ?_
  rw [refcount_cast_sum]
  unfold rowC ind
  refine Finset.sum_congr rfl fun j _ => ?_
  by_cases hp : 0 < rowOf x0 n c j <;> simp [hp]

end Cert.ReferenceIdeal.RefValue

end
-- ==== Proof.Finite.lean ====
/-
  The precondition read back: an array all of whose entries have absolute value below +∞
  has only real entries.
-/
import proofs.«177906_j35948876267666_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Cert.Pre_finite_inputs Cert.Pre_finite_inputs.Gen

/-- The scalar shape has exactly one index. -/
instance finite_subsingleton : Subsingleton Cert.Pre_finite_inputs.S_.Idx :=
  ⟨fun a b => funext fun d => d.elim0⟩

/-- The word 0x7F800000 is +∞. -/
theorem finite_top : Ideal.ofBits .f32 0x7F800000#32 = (⊤ : EReal) := by
  simp [Ideal.ofBits, Ideal.ieee]

/-- An extended real whose absolute value max x (-x) is below +∞ is a real. -/
theorem finite_of_abs_lt_top (x : EReal) (hx : max x (-x) < ⊤) : ∃ r : ℝ, x = (r : EReal) := by
  induction x using EReal.rec with
  | bot => simp at hx
  | coe r => exact ⟨r, rfl⟩
  | top => simp at hx

/-- Every entry of an array satisfying the precondition is a real number. -/
theorem real_of_pre (x0 : FVec Ideal Cert.Pre_finite_inputs.S8x20x512x512 .f32)
    (h : Cert.Pre_finite_inputs.fn (F := Ideal) x0 = fun _ => 1#1) : ∀ i, ∃ r : ℝ, x0 i = (r : EReal) := by
  intro i
  have h0 := congrFun h ValueIdx.ix0
  dsimp only [Cert.Pre_finite_inputs.fn] at h0
  have h1 := Host.reduce_andi_all _ _ _ _ _ h0 i
  have h2 : Ideal.cmp .olt (max (x0 i) (-(x0 i))) (Ideal.ofBits .f32 0x7F800000#32) = 1#1 := h1
  rw [finite_top] at h2
  apply finite_of_abs_lt_top
  by_contra hc
  simp only [Ideal.cmp, hc, decide_false] at h2
  exact absurd h2 (by decide)

end Cert.Finite

end
-- ==== Proof.lean ====
/-
  Entropy of a masked softmax, row by row: the kernel and its reference compute one function.

  The heatmap is 8 × 20 rows of 512 · 512 entries. Only a row's positive entries count; with M their
  maximum, l = ∑ exp (x - M) and a = ∑ exp (x - M) (x - M) over them, the row's entropy in bits is
  (log l · l - a) / (l · ln 2), and the result for n is the sum of its 20 rows' entropies over the number
  of positive entries among them.

  The kernel meets each row as 8 blocks of 32768 lanes and keeps a running (maximum, l, a, count),
  rescaling l and a by exp (m_old - m_new) whenever the maximum moves; after the last block the running
  state is the closed form over the whole row, because exp (m_old - m_new) · exp (x - m_old) =
  exp (x - m_new) on the reals — which is where the inputs' finiteness is used. The reference takes the
  maximum of the whole row at once, guards the row with no positive entry, and computes -∑ p log p / ln 2
  with p = e / s; on the reals that is the kernel's (log s · s - a) / (s · ln 2), and both are 0 for a row
  with no positive entry. The counts agree because a sum of ones in floats over the extended reals and
  an integer sum that does not wrap both count the positive entries.

  The pieces: the kernel's frame and what its scratch holds point by point are generated; read here are
  the payloads as one `step` per point, the induction over the grid, the three output arrays, the host
  epilogue, the reference's run and its stages at an index, and the two pure lemmas on the extended reals.
-/
import proofs.«177906_j35948876267666_1_alg».proof.Defs
import proofs.«177906_j35948876267666_1_alg».proof.Proof.Gen.Kernel
import proofs.«177906_j35948876267666_1_alg».proof.Proof.Gen.Kernel.Skeleton
import proofs.«177906_j35948876267666_1_alg».proof.Proof.Gen.Kernel.Launch
import proofs.«177906_j35948876267666_1_alg».proof.Proof.Gen.Kernel.Points
import proofs.«177906_j35948876267666_1_alg».proof.Proof.Gen.Kernel.Frame
import proofs.«177906_j35948876267666_1_alg».proof.Proof.Gen.KernelIdeal
import proofs.«177906_j35948876267666_1_alg».proof.Proof.Gen.KernelIdeal.Skeleton
import proofs.«177906_j35948876267666_1_alg».proof.Proof.Gen.KernelIdeal.Launch
import proofs.«177906_j35948876267666_1_alg».proof.Proof.Gen.KernelIdeal.Points
import proofs.«177906_j35948876267666_1_alg».proof.Proof.Gen.KernelIdeal.Frame
import proofs.«177906_j35948876267666_1_alg».proof.Proof.Gen.ReferenceIdeal
import proofs.«177906_j35948876267666_1_alg».proof.Proof.Gen.Pre_finite_inputs
import proofs.«177906_j35948876267666_1_alg».proof.Proof.Bridge
import proofs.«177906_j35948876267666_1_alg».proof.Proof.KTail
import proofs.«177906_j35948876267666_1_alg».proof.Proof.RefRunBy
import proofs.«177906_j35948876267666_1_alg».proof.Proof.RefEnt
import proofs.«177906_j35948876267666_1_alg».proof.Proof.RefMax
import proofs.«177906_j35948876267666_1_alg».proof.Proof.RefCount
import proofs.«177906_j35948876267666_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Ent

/-- The common result: for each n, the sum of its 20 rows' entropies over the number of their positive entries. -/
def result (x0 : (⟨4, ![8, 20, 512, 512]⟩ : Shape).Idx → EReal) : (⟨1, ![8]⟩ : Shape).Idx → EReal := fun i =>
  Ideal.div (0 + ∑ ch : Fin 20, refEnt (rowOf x0 (i 0) ch)) (0 + ∑ ch : Fin 20, rowC (rowOf x0 (i 0) ch))

/-- The idealized kernel program ends with its result at `result` of the heatmap, the heatmap unchanged. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v16)
          = result (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) := by
  refine (θ_run (Cert.KernelIdeal.defs (F := Ideal)) _ _).mono (fun r h c => ⟨?_, ?_⟩) (Cert.KernelIdeal.Gen.run_main m ρ)
  · have hfin := Cert.Finite.real_of_pre _ (hpre c)
    refine ((h c).2 Cert.KernelIdeal.main_v16 (Pipeline.mem_restRefs_of Cert.KernelIdeal.main_v16 (by decide) (by decide))).trans ?_
    rw [Cert.KernelIdeal.Tail.tail_run m c, Cert.KernelIdeal.Final.final1, Cert.KernelIdeal.Final.final2, Cert.KernelIdeal.Final.final3]
    funext i
    obtain ⟨n, rfl⟩ : ∃ n : Fin 8, i = ix1 n := ⟨i 0, eq_ix1 (n := 8) i⟩
    rw [Cert.KernelIdeal.Tail.tail_apply, Cert.KernelIdeal.Bridge.kernel_value m c hfin]
    rfl
  · exact ((h c).2 Cert.KernelIdeal.main_arg0 (Pipeline.mem_restRefs_of Cert.KernelIdeal.main_arg0 (by decide) (by decide))).trans
      (Cert.KernelIdeal.Gen.W_main_arg0 m (Cert.KernelIdeal.Gen.dats m) c)

/-- The reference's result, read at an index, is `result` of the heatmap. -/
theorem reference_value (x0 : (⟨Cert.ReferenceIdeal.S8x20x512x512, .f32⟩ : BufTy).Contents (Elt Ideal)) :
    Cert.ReferenceIdeal.Read.val_main_v36 (F := Ideal) x0 = result x0 := by
  funext i
  obtain ⟨n, rfl⟩ : ∃ n : Fin 8, i = ix1 n := ⟨i 0, eq_ix1 (n := 8) i⟩
  rw [Cert.ReferenceIdeal.RefValue.ref_result x0 n (fun c j => Cert.ReferenceIdeal.RefValue.ref_v0 x0 n c j)
      (fun c => Cert.ReferenceIdeal.RefValue.ref_max x0 n c (fun j => Cert.ReferenceIdeal.RefValue.ref_v0 x0 n c j)),
    Cert.ReferenceIdeal.RefValue.ref_count x0 n]
  show _ = Ideal.div (0 + ∑ ch : Fin 20, refEnt (rowOf x0 n ch)) (0 + ∑ ch : Fin 20, rowC (rowOf x0 n ch))
  rw [zero_add (∑ ch : Fin 20, rowC (rowOf x0 n ch))]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunBy.run (F := Ideal) m ρ)

/-- From memories that agree on the heatmap both programs end at `result` of it. -/
theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0)), kernel_run m ρ hpre, ?_⟩
  refine (θ_run Cert.ReferenceIdeal.defs _ _).mono (fun _ h c => ⟨(h c).1.trans ?_, (h c).2⟩)
    (Cert.ReferenceIdeal.RunBy.run (F := Ideal) m' ρ')
  rw [hagree c]
  exact reference_value _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
